-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S8192x256 : Shape := ⟨2, ![8192, 256]⟩
abbrev S1x256 : Shape := ⟨2, ![1, 256]⟩
abbrev S32768 : Shape := ⟨1, ![32768]⟩
abbrev S8192 : Shape := ⟨1, ![8192]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x256 : S_.BroadcastsInDim S1x256 (![] : Fin 0 → Fin S1x256.rank)
  reducesTo_S1x256_S_d0_1 : S1x256.ReducesTo [0, 1] S_
  reducesTo_S32768x256_S32768_d1 : S32768x256.ReducesTo [1] S32768
  bcast_S_S32768 : S_.BroadcastsInDim S32768 (![] : Fin 0 → Fin S32768.rank)
  reducesTo_S32768_S_d0 : S32768.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_v13 : IVec S_ 1) (main_v15 : FVec F S32768 .f32) (main_cst_5 : FVec F S_ .f32) : IVec S_ 1 :=
  let main_v16 : FVec F S32768 .f32 := broadcastInDim S32768 ![] bcast_S_S32768 main_cst_5
  let main_v17 : IVec S32768 1 := cmpf .ogt main_v15 main_v16
  let main_c_6 : IVec S_ 1 := constantI S_ 1 1#1
  let main_v18 : IVec S_ 1 := (fun x v => Host.reduce IntOp.andi x v reducesTo_S32768_S_d0 h_S_) main_v17 main_c_6
  let main_v19 : IVec S_ 1 := andi main_v13 main_v18
  let main_c_7 : IVec S_ 32 := constantI S_ 32 0#32
  let main_v20 : IVec S8192 32 := broadcastInDim S8192 ![] bcast_S_S8192 main_c_7
  let main_v21 : IVec S8192 1 := cmpi .sge main_arg4 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v19 main_v22
  let main_c_9 : IVec S_ 32 := constantI S_ 32 256#32
  let main_v24 : IVec S8192 32 := broadcastInDim S8192 ![] bcast_S_S8192 main_c_9
  let main_v25 : IVec S8192 1 := cmpi .slt main_arg4 main_v24
  let main_c_10 : IVec S_ 1 := constantI S_ 1 1#1
  let main_v26 : IVec S_ 1 := (fun x v => Host.reduce IntOp.andi x v reducesTo_S8192_S_d0 h_S_) main_v25 main_c_10
  let main_v27 : IVec S_ 1 := andi main_v23 main_v26
  main_v27

def fn {F : FTy → Type} [FloatOps F] (main_arg0 : FVec F S32768x256 .f32) (main_arg1 : FVec F S8192x256 .f32) (main_arg2 : FVec F S1x256 .f32) (main_arg3 : IVec S32768 32) (main_arg4 : IVec S8192 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S32768x256 .f32 := mulf main_arg0 main_arg0
  let main_cst_4 : FVec F S_ .f32 := constant S_ .f32 0x00000000#32
  let main_v15 : FVec F S32768 .f32 := (fun x v => Host.reduceAdd x v reducesTo_S32768x256_S32768_d1 h_S_) main_v14 main_cst_4
  let main_cst_5 : FVec F S_ .f32 := constant S_ .f32 0x00000000#32
  fn_part1 (F := F) main_arg4 main_v13 main_v15 main_cst_5
-- ==== Kernel.lean ====
abbrev S32768x256 : Shape := ⟨2, ![32768, 256]⟩
abbrev S8192x256 : Shape := ⟨2, ![8192, 256]⟩
abbrev S1x256 : Shape := ⟨2, ![1, 256]⟩
abbrev S32768 : Shape := ⟨1, ![32768]⟩
abbrev S8192 : Shape := ⟨1, ![8192]⟩
abbrev S256 : Shape := ⟨1, ![256]⟩
abbrev S_ : Shape := ⟨0, ![]⟩
abbrev S8192x1 : Shape := ⟨2, ![8192, 1]⟩
abbrev S256x8192 : Shape := ⟨2, ![256, 8192]⟩
abbrev S256x256 : Shape := ⟨2, ![256, 256]⟩
abbrev S32768x1 : Shape := ⟨2, ![32768, 1]⟩
abbrev S2048x256 : Shape := ⟨2, ![2048, 256]⟩
abbrev S2048x1 : Shape := ⟨2, ![2048, 1]⟩
abbrev S2048 : Shape := ⟨1, ![2048]⟩
abbrev S512 : Shape := ⟨1, ![512]⟩
abbrev S512x1 : Shape := ⟨2, ![512, 1]⟩

abbrev nBuf : Space → Nat
  | .hbm => 28
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S8192x256, .f32⟩
  | .hbm, ⟨2, _⟩ => ⟨S1x256, .f32⟩
  | .hbm, ⟨3, _⟩ => ⟨S32768, .i32⟩
  | .hbm, ⟨4, _⟩ => ⟨S8192, .i32⟩
  | .hbm, ⟨5, _⟩ => ⟨S256, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S256x8192, .f32⟩
  | .hbm, ⟨19, _⟩ => ⟨S256x256, .f32⟩
  | .hbm, ⟨20, _⟩ => ⟨S256x256, .bf16⟩
  | .hbm, ⟨21, _⟩ => ⟨S32768x1, .f32⟩
  | .hbm, ⟨22, _⟩ => ⟨S32768, .f32⟩
  | .hbm, ⟨23, _⟩ => ⟨S_, .f32⟩
  | .hbm, ⟨24, _⟩ => ⟨S512, .f32⟩
  | .hbm, ⟨25, _⟩ => ⟨S32768x1, .i32⟩
  | .hbm, ⟨26, _⟩ => ⟨S512, .f32⟩
  | .hbm, ⟨27, _⟩ => ⟨S512x1, .f32⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S2048x1, .f32⟩
  | .local _ .vmem, ⟨4, _⟩ => ⟨S2048x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x256_S256 : S1x256.ShapeCasts S256
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S32768x1_S32768 : S32768x1.ShapeCasts S32768
  bcast_S_S512 : S_.BroadcastsInDim S512 (![] : Fin 0 → Fin S512.rank)
  bcast_S32768_S32768x1_0 : S32768.BroadcastsInDim S32768x1 (![0] : Fin 1 → Fin S32768x1.rank)
  shapeCasts_S512_S512x1 : S512.ShapeCasts S512x1
  gather_S256_S8192x1_S8192_n_0_n_n_0_1_1_wf : GatherDims.WF S256 S8192x1 S8192 [] [0] [] [0] [] 1 ![1]
  dot_S256x8192_S8192x256_S256x256_1_0_0_1_n_n_wf : DotDims.WF S256x8192 S8192x256 S256x256 [1] [0] [0] [1] [] []
  dot_S2048x256_S256x256_S2048x256_1_0_0_1_n_n_wf : DotDims.WF S2048x256 S256x256 S2048x256 [1] [0] [0] [1] [] []
  scatter_S512_S32768x1_S32768_n_0_0_1_wf : ScatterDims.WF S512 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .f32 = 32 ∨ (Rect.block (s := S32768x1) S2048x1.size (cc0_transform_2 i) (hinb0_2 i)).WholeWords (EltTy.packing .f32)

variable [Facts₀]

def gather_S256_S8192x1_S8192_n_0_n_n_0_1_1 : GatherDims S256 S8192x1 S8192 where
  offsetDims := []
  collapsedSliceDims := [0]
  operandBatchingDims := []
  startIndicesBatchingDims := []
  startIndexMap := [0]
  indexVectorDim := 1
  sliceSizes := ![1]
  wf := gather_S256_S8192x1_S8192_n_0_n_n_0_1_1_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S512_S32768x1_S32768_n_0_0_1 : ScatterDims S512 S32768x1 S32768 where
  updateWindowDims := []
  insertedWindowDims := [0]
  scatterDimsToOperandDims := [0]
  indexVectorDim := 1
  wf := scatter_S512_S32768x1_S32768_n_0_0_1_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x256 : Shape := ⟨2, ![32768, 256]⟩
abbrev S8192x256 : Shape := ⟨2, ![8192, 256]⟩
abbrev S1x256 : Shape := ⟨2, ![1, 256]⟩
abbrev S32768 : Shape := ⟨1, ![32768]⟩
abbrev S8192 : Shape := ⟨1, ![8192]⟩
abbrev S_ : Shape := ⟨0, ![]⟩
abbrev S32768x1 : Shape := ⟨2, ![32768, 1]⟩
abbrev S256x8192 : Shape := ⟨2, ![256, 8192]⟩
abbrev S32768x8192 : Shape := ⟨2, ![32768, 8192]⟩
abbrev S512x8192 : Shape := ⟨2, ![512, 8192]⟩
abbrev S8192x512 : Shape := ⟨2, ![8192, 512]⟩
abbrev S256x512 : Shape := ⟨2, ![256, 512]⟩
abbrev S8192x1 : Shape := ⟨2, ![8192, 1]⟩
abbrev S512x256 : Shape := ⟨2, ![512, 256]⟩
abbrev S256x1 : Shape := ⟨2, ![256, 1]⟩
abbrev S512x1 : Shape := ⟨2, ![512, 1]⟩

abbrev nBuf : Space → Nat
  | .hbm => 27
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S8192x256, .f32⟩
  | .hbm, ⟨2, _⟩ => ⟨S1x256, .f32⟩
  | .hbm, ⟨3, _⟩ => ⟨S32768, .i32⟩
  | .hbm, ⟨4, _⟩ => ⟨S8192, .i32⟩
  | .hbm, ⟨5, _⟩ => ⟨S32768x256, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x1, .f32⟩
  | .hbm, ⟨10, _⟩ => ⟨S32768x256, .f32⟩
  | .hbm, ⟨11, _⟩ => ⟨S32768x256, .f32⟩
  | .hbm, ⟨12, _⟩ => ⟨S256x8192, .f32⟩
  | .hbm, ⟨13, _⟩ => ⟨S32768x8192, .f32⟩
  | .hbm, ⟨14, _⟩ => ⟨S32768x8192, .f32⟩
  | .hbm, ⟨15, _⟩ => ⟨S_, .f32⟩
  | .hbm, ⟨16, _⟩ => ⟨S512x8192, .f32⟩
  | .hbm, ⟨17, _⟩ => ⟨S32768x1, .i32⟩
  | .hbm, ⟨18, _⟩ => ⟨S512x8192, .f32⟩
  | .hbm, ⟨19, _⟩ => ⟨S8192x512, .f32⟩
  | .hbm, ⟨20, _⟩ => ⟨S_, .f32⟩
  | .hbm, ⟨21, _⟩ => ⟨S256x512, .f32⟩
  | .hbm, ⟨22, _⟩ => ⟨S8192x1, .i32⟩
  | .hbm, ⟨23, _⟩ => ⟨S256x512, .f32⟩
  | .hbm, ⟨24, _⟩ => ⟨S512x256, .f32⟩
  | .hbm, ⟨25, _⟩ => ⟨S256x1, .f32⟩
  | .hbm, ⟨26, _⟩ => ⟨S512x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  transposes_S8192x256_S256x8192_1_0 : S8192x256.Transposes [1, 0] S256x8192
  bcast_S_S512x8192 : S_.BroadcastsInDim S512x8192 (![] : Fin 0 → Fin S512x8192.rank)
  transposes_S512x8192_S8192x512_1_0 : S512x8192.Transposes [1, 0] S8192x512
  bcast_S_S256x512 : S_.BroadcastsInDim S256x512 (![] : Fin 0 → Fin S256x512.rank)
  bcast_S8192_S8192x1_0 : S8192.BroadcastsInDim S8192x1 (![0] : Fin 1 → Fin S8192x1.rank)
  transposes_S256x512_S512x256_1_0 : S256x512.Transposes [1, 0] S512x256
  transposes_S1x256_S256x1_1_0 : S1x256.Transposes [1, 0] S256x1
  dot_S32768x256_S256x8192_S32768x8192_1_0_0_1_n_n_wf : DotDims.WF S32768x256 S256x8192 S32768x8192 [1] [0] [0] [1] [] []
  scatter_S512x8192_S32768x1_S32768x8192_1_0_0_1_wf : ScatterDims.WF S512x8192 S32768x1 S32768x8192 [1] [0] [0] 1
  scatter_S256x512_S8192x1_S8192x512_1_0_0_1_wf : ScatterDims.WF S256x512 S8192x1 S8192x512 [1] [0] [0] 1
  dot_S512x256_S256x1_S512x1_1_0_0_1_n_n_wf : DotDims.WF S512x256 S256x1 S512x1 [1] [0] [0] [1] [] []

variable [Facts₀]

def dot_S32768x256_S256x8192_S32768x8192_1_0_0_1_n_n : DotDims S32768x256 S256x8192 S32768x8192 where
  lhsContracting := [1]
  rhsContracting := [0]
  lhsNonContracting := [0]
  rhsNonContracting := [1]
  lhsBatch := []
  rhsBatch := []
  wf := dot_S32768x256_S256x8192_S32768x8192_1_0_0_1_n_n_wf
def scatter_S512x8192_S32768x1_S32768x8192_1_0_0_1 : ScatterDims S512x8192 S32768x1 S32768x8192 where
  updateWindowDims := [1]
  insertedWindowDims := [0]
  scatterDimsToOperandDims := [0]
  indexVectorDim := 1
  wf := scatter_S512x8192_S32768x1_S32768x8192_1_0_0_1_wf
def scatter_S256x512_S8192x1_S8192x512_1_0_0_1 : ScatterDims S256x512 S8192x1 S8192x512 where
  updateWindowDims := [1]
  insertedWindowDims := [0]
  scatterDimsToOperandDims := [0]
  indexVectorDim := 1
  wf := scatter_S256x512_S8192x1_S8192x512_1_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.Spec.lean ====
/-
  The two programs' results as functions of the input arrays, over plain finite index types, on the extended reals.

  Atoms `i`, support points `c`, features `d`, query structures `r`, training structures `t`.
  `P i d` is the power spectrum, `S c d` the support points, `W t` the weights; `rsel i r` says atom `i` belongs to
  structure `r`, `csel c t` that support point `c` belongs to training structure `t`, and `g c` is the training
  structure whose weight the kernel gathers for support point `c`.

  The reference normalises each atom's row by its Euclidean norm, squares its inner product with every support point,
  sums the squares over the atoms of a structure and over the support points of a training structure, and contracts
  with the weights.  The kernel first folds the weights into the 256 × 256 Gram matrix `∑ c, S c e · W (g c) · S c d`,
  evaluates the quadratic form of each atom's unnormalised row in it, divides by the row's squared norm, and sums over the
  atoms of a structure.
-/
import Idealize.ShloMosaic.PureOps.Ideal

noncomputable section

open scoped BigOperators
open Idealize.ShloMosaic

namespace Cert.Spec

variable {ι κ δ σ τ : Type} [Fintype ι] [Fintype κ] [Fintype δ] [Fintype σ] [Fintype τ]

/-- The squared Euclidean norm of atom `i`'s row. -/
def sq (P : ι → δ → EReal) (i : ι) : EReal := ∑ d, P i d * P i d

/-- Atom `i`'s row divided by its norm. -/
def unit (P : ι → δ → EReal) (i : ι) (d : δ) : EReal := Ideal.div (P i d) (Ideal.sqrt (sq P i))

/-- The squared cosine similarity of atom `i` and support point `c`. -/
def cosSq (P : ι → δ → EReal) (S : κ → δ → EReal) (i : ι) (c : κ) : EReal :=
  (∑ d, unit P i d * S c d) * (∑ d, unit P i d * S c d)

/-- The squared similarities summed over the atoms of structure `r`. -/
def rowSum (P : ι → δ → EReal) (S : κ → δ → EReal) (rsel : ι → σ → Prop) [∀ i r, Decidable (rsel i r)] (r : σ) (c : κ) : EReal :=
  ∑ i, if rsel i r then cosSq P S i c else 0

/-- … and then over the support points of training structure `t`. -/
def colSum (P : ι → δ → EReal) (S : κ → δ → EReal) (rsel : ι → σ → Prop) [∀ i r, Decidable (rsel i r)]
    (csel : κ → τ → Prop) [∀ c t, Decidable (csel c t)] (r : σ) (t : τ) : EReal :=
  ∑ c, if csel c t then rowSum P S rsel r c else 0

/-- The reference's result for structure `r`. -/
def refOut (P : ι → δ → EReal) (S : κ → δ → EReal) (W : τ → EReal) (rsel : ι → σ → Prop) [∀ i r, Decidable (rsel i r)]
    (csel : κ → τ → Prop) [∀ c t, Decidable (csel c t)] (r : σ) : EReal :=
  ∑ t, colSum P S rsel csel r t * W t

/-- The weighted Gram matrix of the support points. -/
def gram (S : κ → δ → EReal) (W : τ → EReal) (g : κ → τ) (e d : δ) : EReal := ∑ c, (S c e * W (g c)) * S c d

/-- Atom `i`'s quadratic form in the Gram matrix over its squared norm. -/
def quad (P : ι → δ → EReal) (S : κ → δ → EReal) (W : τ → EReal) (g : κ → τ) (i : ι) : EReal :=
  Ideal.div (∑ d, (∑ e, P i e * gram S W g e d) * P i d) (sq P i)

/-- The kernel's result for structure `r`. -/
def kerOut (P : ι → δ → EReal) (S : κ → δ → EReal) (W : τ → EReal) (rsel : ι → σ → Prop) [∀ i r, Decidable (rsel i r)]
    (g : κ → τ) (r : σ) : EReal :=
  ∑ i, if rsel i r then quad P S W g i else 0

end Cert.Spec

end
-- ==== Proof.LibScatterCount.lean ====
/-
  A histogram by scatter: adding one at the position each index names counts how often each position is named.

  `Host.scatter` with an integer `add` body folds over the updates in row-major order; every update whose index lies
  inside the operand adds its value at that position, the others are dropped. With a column of `n` indices into a
  line of `K` bins and every update equal to one, bin `b` ends at its initial value plus the number of positions `p`
  whose index, read signed, is `b` (as a 32-bit word: the count is taken modulo 2³²).

  The argument has three parts, none of which looks at the size of `n`:

  * where an update lands. With one scattered operand axis, that axis inserted, and the index vector on axis 1 of the
    index column, update `j` has start `idx[j, 0]` read signed and window coordinate 0, so it lands on bin `idx[j, 0]`
    when `0 ≤ idx[j, 0] < K` and is dropped otherwise (`siIdx_col`, `start_col`, `window_none`, `sum_col`,
    `resultIdx_some`, `resultIdx_none`);
  * what a fold of such steps does to one bin. A step changes bin `b` only when its update lands on `b`, and then by
    adding one; by induction over the list of updates, the fold adds to bin `b` the number of list elements that land
    on it (`foldl_add_count`);
  * what that number is over the whole row-major enumeration. The enumeration meets every position `p < n` exactly
    once, so the number of enumerated updates landing on `b` is the number of `p` with `idx[p, 0] = b` (`count_rows`).
-/
import Idealize.ShloMosaic.PureOps
import Idealize.ShloMosaic.Lib.ValueIdx
import Idealize.ShloMosaic.Lib.StableHlo.Predicate

noncomputable section

open scoped BigOperators
open Idealize.ShloMosaic Idealize.ShloMosaic.ValueIdx

namespace Cert.LibScatterCount

/-! ### Where an update lands -/

open StableHlo.Predicate in
/-- With the index vector on axis 1 of an [n × 1] index column and one scattered operand axis, update `j` reads its one
    start component at row `j 0` of the column: the update's only axis is its scatter axis and goes to the column's
    axis 0, and the component number, below the length 1 of the axis map, is 0. -/
theorem siIdx_col {K n : Nat} (d : ScatterDims ⟨1, ![K]⟩ ⟨2, ![n, 1]⟩ ⟨1, ![n]⟩)
    (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    -- axis 0 is not the index vector's: its coordinate is the update's coordinate on its one (scatter) axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- The start of update `j`'s window on the operand's one axis is the index at row `j 0` of the column, read signed:
    the axis map names that axis. -/
theorem start_col {K n : Nat} (d : ScatterDims ⟨1, ![K]⟩ ⟨2, ![n, 1]⟩ ⟨1, ![n]⟩)
    (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a = (idx (ixP (j 0))).toInt := by
  have ha : a ∈ d.scatterDimsToOperandDims := by
    rw [hsd]
    have h0 : a = 0 := Subsingleton.elim _ _
    subst h0
    exact List.mem_singleton.mpr rfl
  unfold ScatterDims.start
  rw [dif_pos ha, siIdx_col d hsd hivd]
  rfl

/-- The window coordinate on the operand's one axis is 0: that axis is an inserted window axis, so no axis of the
    update is a window axis going to it. -/
theorem window_none {K n : Nat} (d : ScatterDims ⟨1, ![K]⟩ ⟨2, ![n, 1]⟩ ⟨1, ![n]⟩)
    (hiw : d.insertedWindowDims = [0])
    (j : (⟨1, ![n]⟩ : Shape).Idx) (a : Fin (⟨1, ![K]⟩ : Shape).rank) :
    d.window j a = 0 := by
  have ha : a ∉ d.sKept := by
    have h0 : a = 0 := Subsingleton.elim _ _
    subst h0
    simp [ScatterDims.sKept, Shape.kept, hiw]
  unfold ScatterDims.window
  rw [dif_neg ha]

open StableHlo.Predicate in
/-- Start plus window coordinate, the position update `j` aims at on the operand's one axis, is the signed index at
    row `j 0`. -/
theorem sum_col {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a + (d.window j a : Int) = (idx (ixP (j 0))).toInt := by
  rw [start_col d hsd hivd, window_none d hiw]; simp

open StableHlo.Predicate in
/-- An update that lands, lands on bin `b` exactly when its signed index is `b`: the landing position is the index,
    which is then non-negative, taken as a natural number. -/
theorem resultIdx_some {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (i : (⟨1, ![K]⟩ : Shape).Idx)
    (h : d.resultIdx? j idx = some i) (b : Fin K) :
    ix1 b = i ↔ (idx (ixP (j 0))).toInt = (b.val : Int) := by
  unfold ScatterDims.resultIdx? at h
  split at h
  · next hin =>
    have hi := Option.some.inj h
    -- inside the operand: 0 ≤ index < K
    have h0 := hin 0
    rw [sum_col d hiw hsd hivd] at h0
    -- and the landing coordinate is that index as a natural number
    have hv : (i 0).val = (idx (ixP (j 0))).toInt.toNat := by
      rw [← hi]
      show (d.start j idx 0 + (d.window j 0 : Int)).toNat = _
      rw [sum_col d hiw hsd hivd]
    constructor
    · intro e
      have : b.val = (i 0).val := congrArg (fun f => (f 0).val) e
      omega
    · intro e
      rw [eq_ix1 i]
      congr 1
      apply Fin.ext
      omega
  · exact absurd h (by simp)

open StableHlo.Predicate in
/-- A dropped update's signed index is no bin: it is negative or at least `K`, and every bin `b` has `0 ≤ b < K`. -/
theorem resultIdx_none {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx)
    (h : d.resultIdx? j idx = none) (b : Fin K) :
    (idx (ixP (j 0))).toInt ≠ (b.val : Int) := by
  intro e
  unfold ScatterDims.resultIdx? at h
  split at h
  · exact absurd h (by simp)
  · next hout =>
    -- were the index `b`, it would be inside the operand and the update would land
    apply hout
    intro a
    have h0 : a = 0 := Subsingleton.elim _ _
    subst h0
    rw [sum_col d hiw hsd hivd, e]
    have := b.isLt
    show (0 : Int) ≤ b.val ∧ (b.val : Int) < (K : Nat)
    omega

/-! ### A fold of steps that add one at a position -/

/-- A left fold whose step adds one at position `c` exactly on the list elements that pass the test `T`, and leaves
    position `c` as it was on the others, ends at the initial value there plus the number of elements that pass. -/
theorem foldl_add_count {ι β : Type} (F : (β → BitVec 32) → ι → β → BitVec 32) (c : β) (T : ι → Bool)
    (hF : ∀ r m, F r m c = if T m = true then r c + 1#32 else r c) (L : List ι) (r : β → BitVec 32) :
    (L.foldl F r) c = r c + BitVec.ofNat 32 (L.countP T) := by
  induction L generalizing r with
  | nil => simp
  | cons m L ih =>
    -- the tail's fold starts from the head's step: (r c [+ 1]) + #tail = r c + (#tail [+ 1])
    rw [List.foldl_cons, ih, hF, List.countP_cons]
    by_cases hT : T m = true
    · rw [if_pos hT, if_pos hT, BitVec.ofNat_add, BitVec.add_assoc]
      congr 1
      exact BitVec.add_comm _ _
    · rw [if_neg hT, if_neg hT, Nat.add_zero]

/-! ### The row-major enumeration of a line meets every position once -/

/-- Counting, along the row-major enumeration of a line of `n` positions, the positions whose coordinate passes a test
    is counting the coordinates `p < n` that pass it: the enumeration meets every coordinate exactly once. -/
theorem count_rows {n : Nat} (P : Fin n → Bool) :
    (List.finRange (⟨1, ![n]⟩ : Shape).numel).countP (fun m => P (((⟨1, ![n]⟩ : Shape).rowMajor.symm m) 0))
      = (Finset.univ.filter fun p : Fin n => P p = true).card := by
  -- the enumeration has no repeats, so the count is the size of the set of enumerated numbers that pass
  rw [List.countP_eq_length_filter, ← List.toFinset_card_of_nodup ((List.nodup_finRange _).filter _),
    List.toFinset_filter, List.toFinset_finRange]
  -- and a number's coordinate is a bijection from the numbers onto the coordinates
  refine Finset.card_bij (fun m _ => ((⟨1, ![n]⟩ : Shape).rowMajor.symm m) 0) ?_ ?_ ?_
  · intro m hm
    exact Finset.mem_filter.2 ⟨Finset.mem_univ _, (Finset.mem_filter.1 hm).2⟩
  · intro m _ m' _ e
    apply (⟨1, ![n]⟩ : Shape).rowMajor.symm.injective
    rw [eq_ix1 ((⟨1, ![n]⟩ : Shape).rowMajor.symm m), eq_ix1 ((⟨1, ![n]⟩ : Shape).rowMajor.symm m'), e]
  · intro p hp
    refine ⟨(⟨1, ![n]⟩ : Shape).rowMajor (ix1 p), Finset.mem_filter.2 ⟨Finset.mem_univ _, ?_⟩, ?_⟩
    · rw [Equiv.symm_apply_apply]; exact (Finset.mem_filter.1 hp).2
    · rw [Equiv.symm_apply_apply]; rfl

/-! ### The histogram -/

/-- Bin `b` of a scatter of ones along a column of indices: its initial word plus the number of rows whose index is `b`. -/
theorem scatter_ones_count {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → BitVec 32) (idx : IVec ⟨2, ![n, 1]⟩ 32) (b : Fin K) :
    Host.scatter d IntOp.addi x idx (fun _ => 1#32) (ix1 b)
      = x (ix1 b) + BitVec.ofNat 32 (Finset.univ.filter fun p : Fin n => (idx (StableHlo.Predicate.ixP p)).toInt = (b.val : Int)).card := by
  unfold Host.scatter
  -- the scatter is a left fold over the enumerated updates; the test on update number `m` is "its index is `b`"
  refine (foldl_add_count _ (ix1 b)
    (fun m => decide ((idx (StableHlo.Predicate.ixP (((⟨1, ![n]⟩ : Shape).rowMajor.symm m) 0))).toInt = (b.val : Int)))
    ?_ _ x).trans ?_
  · -- one step, read at bin `b`
    intro r m
    beta_reduce
    cases hres : d.resultIdx? ((⟨1, ![n]⟩ : Shape).rowMajor.symm m) idx with
    | none =>
      -- dropped: the bin keeps its value, and the index is not `b`
      have hne := resultIdx_none d hiw hsd hivd idx _ hres b
      show r (ix1 b) = _
      rw [if_neg (fun h => hne (of_decide_eq_true h))]
    | some i =>
      -- landed on `i`: bin `b` gains one when `i` is `b`, that is when the index is `b`, and keeps its value otherwise
      have hiff := resultIdx_some d hiw hsd hivd idx _ i hres b
      show (if ix1 b = i then IntOp.addi (r i) 1#32 else r (ix1 b)) = _
      by_cases hb : ix1 b = i
      · rw [if_pos hb, if_pos (decide_eq_true (hiff.1 hb)), ← hb]
        rfl
      · rw [if_neg hb, if_neg (fun h => hb (hiff.2 (of_decide_eq_true h)))]
  · -- the number of enumerated updates whose index is `b` is the number of rows whose index is `b`
    rw [count_rows fun p => decide ((idx (StableHlo.Predicate.ixP p)).toInt = (b.val : Int))]
    simp only [decide_eq_true_eq]

end Cert.LibScatterCount

end
-- ==== Proof.LibScatterRows.lean ====
/-
  A float scatter-add along a column of indices, read at one result position on the extended reals.

  The accumulating float scatter gives each operand position its initial value plus the sum of the updates whose index
  lands on it. With one scattered operand axis, that axis inserted, and the index vector on axis 1 of an [n × 1] index
  column, the update in row `p` is aimed at the operand position its signed index `idx[p, 0]` names on axis 0, and is
  dropped when that is outside the operand. Two geometries:

  * rows: an [n × C] update into a [K × C] operand. The update's axis 1 is its window axis and goes to the operand's
    axis 1 unchanged, so update (p, q) lands on (b, c) exactly when `idx[p, 0] = b` and `q = c`; the sum over the
    updates landing on (b, c), split by row and column, keeps from each row aimed at `b` its entry in column `c`;
  * a line: a length-`n` update into a length-`K` operand; update `p` lands on `b` exactly when `idx[p, 0] = b`.
-/
import Idealize.ShloMosaic.PureOps.Ideal
import Idealize.ShloMosaic.Lib.ValueIdx
import Idealize.ShloMosaic.Lib.StableHlo.Predicate
import proofs.«411673_j62955630625135_2_alg».proof.Proof.LibScatterCount

noncomputable section

open scoped BigOperators
open Idealize.ShloMosaic Idealize.ShloMosaic.ValueIdx

namespace Cert.LibScatterRows

open Cert.LibScatterCount

/-! ### Rows: where an update lands

  The operand is [K × C], the update [n × C], the indices an [n × 1] column. The update's axis 0 is its scatter axis and
  reads the column's axis 0; its axis 1 is its one window axis and goes to the operand's axis 1, the one operand axis that
  is not inserted. The operand's axis 0 is the one the index names. -/

open StableHlo.Predicate in
/-- Update `j` reads its one start component at row `j 0` of the index column: its one scatter axis is axis 0 (axis 1 is
    the window axis), going to the column's axis 0; the component number, below the length 1 of the axis map, is 0. -/
theorem siIdx_rows {K n C : Nat} (d : ScatterDims ⟨2, ![K, C]⟩ ⟨2, ![n, 1]⟩ ⟨2, ![n, C]⟩)
    (huw : d.updateWindowDims = [1]) (hsd : d.scatterDimsToOperandDims = [0]) (hivd : d.indexVectorDim = 1)
    (j : (⟨2, ![n, C]⟩ : Shape).Idx) (c : Fin d.scatterDimsToOperandDims.length) :
    d.siIdx j c = ixP (j 0) := by
  funext b
  match b with
  | ⟨0, _⟩ =>
    -- axis 0 is not the index vector's: its coordinate is the update's coordinate on a scatter axis, and axis 0 is the only one
    unfold ScatterDims.siIdx
    rw [dif_neg (by rw [hivd]; simp)]
    unfold ScatterDims.siCoord
    apply Fin.ext
    simp only [Fin.val_cast]
    have hmem : ∀ X : Fin (⟨2, ![n, C]⟩ : Shape).rank, X ∈ d.uScatter → X = 0 := by
      intro X hX
      have hX' : X ∉ d.updateWindowDims := by
        have := (List.mem_filter.1 hX).2
        simpa using this
      rw [huw] at hX'
      match X, hX' with
      | ⟨0, _⟩, _ => rfl
      | ⟨1, _⟩, h => exact absurd (List.mem_singleton.mpr rfl) h
    have e : ∀ X : Fin (⟨2, ![n, C]⟩ : Shape).rank, X = 0 → (j X).val = (j 0).val := fun X h => by subst h; rfl
    exact e _ (hmem _ (List.getElem_mem _))
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- On the operand's axis 0 the window of update `j` starts at the index at row `j 0`, read signed: the axis map names
    that axis. -/
theorem start_rows0 {K n C : Nat} (d : ScatterDims ⟨2, ![K, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ 32) (j : (⟨2, ![n, C]⟩ : Shape).Idx) :
    d.start j idx 0 = (idx (ixP (j 0))).toInt := by
  have ha : (0 : Fin (⟨2, ![K, C]⟩ : Shape).rank) ∈ d.scatterDimsToOperandDims := by
    rw [hsd]; exact List.mem_singleton.mpr rfl
  unfold ScatterDims.start
  rw [dif_pos ha, siIdx_rows d huw hsd hivd]
  rfl

/-- On the operand's axis 1 the window starts at 0: the axis map does not name that axis. -/
theorem start_rows1 {K n C : Nat} (d : ScatterDims ⟨2, ![K, C]⟩ ⟨2, ![n, 1]⟩ ⟨2, ![n, C]⟩)
    (hsd : d.scatterDimsToOperandDims = [0])
    (idx : IVec ⟨2, ![n, 1]⟩ 32) (j : (⟨2, ![n, C]⟩ : Shape).Idx) :
    d.start j idx 1 = 0 := by
  have ha : (1 : Fin (⟨2, ![K, C]⟩ : Shape).rank) ∉ d.scatterDimsToOperandDims := by
    rw [hsd]; simp
  unfold ScatterDims.start
  rw [dif_neg ha]

/-- The window coordinate on the operand's axis 0 is 0: that axis is an inserted window axis. -/
theorem window_rows0 {K n C : Nat} (d : ScatterDims ⟨2, ![K, C]⟩ ⟨2, ![n, 1]⟩ ⟨2, ![n, C]⟩)
    (hiw : d.insertedWindowDims = [0]) (j : (⟨2, ![n, C]⟩ : Shape).Idx) :
    d.window j 0 = 0 := by
  have ha : (0 : Fin (⟨2, ![K, C]⟩ : Shape).rank) ∉ d.sKept := by
    simp [ScatterDims.sKept, Shape.kept, hiw]
  unfold ScatterDims.window
  rw [dif_neg ha]

/-- The window coordinate on the operand's axis 1 is the update's coordinate on its axis 1: the operand's axis 1 is kept,
    and the update's only window axis is axis 1. -/
theorem window_rows1 {K n C : Nat} (d : ScatterDims ⟨2, ![K, C]⟩ ⟨2, ![n, 1]⟩ ⟨2, ![n, C]⟩)
    (huw : d.updateWindowDims = [1]) (hiw : d.insertedWindowDims = [0]) (j : (⟨2, ![n, C]⟩ : Shape).Idx) :
    d.window j 1 = (j 1).val := by
  have ha : (1 : Fin (⟨2, ![K, C]⟩ : Shape).rank) ∈ d.sKept := by
    simp [ScatterDims.sKept, Shape.kept, hiw]
  unfold ScatterDims.window
  rw [dif_pos ha]
  have hmem : ∀ X : Fin (⟨2, ![n, C]⟩ : Shape).rank, X ∈ d.updateWindowDims → X = 1 := by
    intro X hX
    rw [huw] at hX
    exact List.mem_singleton.1 hX
  have e : ∀ X : Fin (⟨2, ![n, C]⟩ : Shape).rank, X = 1 → (j X).val = (j 1).val := fun X h => by subst h; rfl
  exact e _ (hmem _ (List.getElem_mem _))

open StableHlo.Predicate in
/-- Update `j` lands on position (b, c) exactly when its signed index is `b` and its column is `c`: on axis 0 it aims at
    its index (start the index, window coordinate 0), on axis 1 at its own column (start 0, window coordinate `j 1`),
    which is always inside the operand; so it lands, and on (index, `j 1`), exactly when `0 ≤ index < K`. -/
theorem resultIdx_rows_iff {K n C : Nat} (d : ScatterDims ⟨2, ![K, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ 32) (j : (⟨2, ![n, C]⟩ : Shape).Idx) (b : Fin K) (c : Fin C) :
    d.resultIdx? j idx = some (ix2 b c) ↔ ((idx (ixP (j 0))).toInt = (b.val : Int) ∧ j 1 = c) := by
  -- what update `j` aims at on the two axes
  have h0 : d.start j idx 0 + (d.window j 0 : Int) = (idx (ixP (j 0))).toInt := by
    rw [start_rows0 d huw hsd hivd, window_rows0 d hiw]; simp
  have h1 : d.start j idx 1 + (d.window j 1 : Int) = ((j 1).val : Int) := by
    rw [start_rows1 d hsd, window_rows1 d huw hiw]; simp
  have hb := b.isLt
  have hc := c.isLt
  have hj1 : (j 1).val < C := (j 1).isLt
  unfold ScatterDims.resultIdx?
  split
  · next hin =>
    constructor
    · intro h
      have hi := Option.some.inj h
      have e0 : (d.start j idx 0 + (d.window j 0 : Int)).toNat = b.val := congrArg (fun f => (f 0).val) hi
      have e1 : (d.start j idx 1 + (d.window j 1 : Int)).toNat = c.val := congrArg (fun f => (f 1).val) hi
      have g0 := (hin 0).1
      rw [h0] at e0 g0
      rw [h1] at e1
      refine ⟨by omega, Fin.ext ?_⟩
      omega
    · rintro ⟨eb, ec⟩
      congr 1
      funext a
      match a with
      | ⟨0, _⟩ =>
        apply Fin.ext
        show (d.start j idx 0 + (d.window j 0 : Int)).toNat = b.val
        rw [h0]; omega
      | ⟨1, _⟩ =>
        apply Fin.ext
        show (d.start j idx 1 + (d.window j 1 : Int)).toNat = c.val
        rw [h1, ← ec]; omega
  · next hout =>
    constructor
    · intro h; exact absurd h (by simp)
    · rintro ⟨eb, _⟩
      exfalso
      apply hout
      intro a
      match a with
      | ⟨0, _⟩ =>
        show 0 ≤ d.start j idx 0 + (d.window j 0 : Int) ∧ d.start j idx 0 + (d.window j 0 : Int) < (K : Nat)
        rw [h0, eb]; omega
      | ⟨1, _⟩ =>
        show 0 ≤ d.start j idx 1 + (d.window j 1 : Int) ∧ d.start j idx 1 + (d.window j 1 : Int) < (C : Nat)
        rw [h1]; omega

/-- Rows of an [n × C] update added into the rows of a [K × C] operand that a column of `n` indices names: position
    (b, c) ends at its initial value plus the sum, over the rows `p` whose signed index is `b`, of the update at (p, c). -/
theorem scatterAdd_rows_apply {K n C : Nat} (d : ScatterDims ⟨2, ![K, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![K, C]⟩ : Shape).Idx → EReal) (idx : IVec ⟨2, ![n, 1]⟩ 32) (upd : (⟨2, ![n, C]⟩ : Shape).Idx → EReal)
    (b : Fin K) (c : Fin C) :
    Ideal.hostScatterAdd d x idx upd (ix2 b c)
      = x (ix2 b c) + ∑ p : Fin n, if (idx (StableHlo.Predicate.ixP p)).toInt = (b.val : Int) then upd (ix2 p c) else 0 := by
  unfold Ideal.hostScatterAdd
  beta_reduce
  congr 1
  -- the sum over the updates that land on (b, c) is the sum over all updates of the ones that do, by row and column
  rw [Finset.sum_filter, sum_idx2]
  refine Finset.sum_congr rfl fun p _ => ?_
  have hiff : ∀ q : Fin C, d.resultIdx? (ix2 p q) idx = some (ix2 b c)
      ↔ ((idx (StableHlo.Predicate.ixP p)).toInt = (b.val : Int) ∧ q = c) :=
    fun q => resultIdx_rows_iff d huw hiw hsd hivd idx (ix2 p q) b c
  by_cases hb : (idx (StableHlo.Predicate.ixP p)).toInt = (b.val : Int)
  · -- row `p` is aimed at `b`: of its columns only `c` lands on (b, c)
    rw [if_pos hb, Finset.sum_eq_single c]
    · rw [if_pos ((hiff c).2 ⟨hb, rfl⟩)]
    · intro q _ hq
      rw [if_neg (fun h => hq ((hiff q).1 h).2)]
    · intro h
      exact absurd (Finset.mem_univ c) h
  · -- row `p` is aimed elsewhere: none of its columns lands on (b, c)
    rw [if_neg hb]
    refine Finset.sum_eq_zero fun q _ => ?_
    rw [if_neg (fun h => hb ((hiff q).1 h).1)]

/-! ### The line: which updates land on a position -/

open StableHlo.Predicate in
/-- Update `j` of a line lands on position `b` exactly when its signed index is `b`. -/
theorem resultIdx_line_iff {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (b : Fin K) :
    d.resultIdx? j idx = some (ix1 b) ↔ (idx (ixP (j 0))).toInt = (b.val : Int) := by
  cases hres : d.resultIdx? j idx with
  | none =>
    have hne := resultIdx_none d hiw hsd hivd idx j hres b
    exact ⟨fun h => absurd h (by simp), fun h => absurd h hne⟩
  | some i =>
    rw [← resultIdx_some d hiw hsd hivd idx j i hres b]
    exact ⟨fun h => (Option.some.inj h).symm, fun h => by rw [h]⟩

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entries of a length-`n` update added into a length-`K` line at the positions a column of `n` indices names:
    position `b` ends at its initial value plus the sum of the update over the rows `p` whose signed index is `b`. -/
theorem scatterAdd_line_apply {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ 32) (upd : (⟨1, ![n]⟩ : Shape).Idx → EReal) (b : Fin K) :
    Ideal.hostScatterAdd d x idx upd (ix1 b)
      = x (ix1 b) + ∑ p : Fin n, if (idx (StableHlo.Predicate.ixP p)).toInt = (b.val : Int) then upd (ix1 p) else 0 := by
  unfold Ideal.hostScatterAdd
  beta_reduce
  congr 1
  -- the sum over the updates that land on `b` is the sum over all updates of the ones that do, by coordinate
  rw [Finset.sum_filter, sum_idx1]
  refine Finset.sum_congr rfl fun p _ => ?_
  have hiff := resultIdx_line_iff d hiw hsd hivd idx (ix1 p) b
  by_cases hb : (idx (StableHlo.Predicate.ixP p)).toInt = (b.val : Int)
  · rw [if_pos hb, if_pos (hiff.2 hb)]
  · rw [if_neg hb, if_neg (fun h => hb (hiff.1 h))]

end Cert.LibScatterRows

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibHostContract.lean ====
/-
  A host contraction, and two broadcasts, read at one entry over the extended reals.

  For `A : [M, K]` and `B : [K, N]` under the dimension numbers "contract the left operand's axis 1 with the right
  operand's axis 0, no batch axis", the host's product is, at entry `(i, l)`, the sum over the contracted coordinate `k`
  of `A (i, k) * B (k, l)`. For two stacks `A, B : [G, m, K]` under "batch axis 0 of both, contract the last axis of
  both", member `g` of the product is the table of inner products of the rows of the two members `g`: entry `(g, i, l)`
  is the sum over `d` of `A (g, i, d) * B (g, l, d)`. In both, the contraction index has one axis of extent `K`, so the
  sum over it is re-indexed by its one coordinate. The dimension numbers are taken with their conditions as a
  hypothesis, so the lemmas apply to a record whatever proof of its conditions it carries. Nothing is assumed of the
  entries (they may be infinite).

  A vector of `K` entries laid as one row and copied down `M` rows reads its entry `k` at `(b, k)`; a `G × n` array given
  a middle axis of extent one reads its entry `(g, d)` at `(g, 0, d)`. Both for any element type.
-/
import Idealize.ShloMosaic.PureOps.Ideal.Laws
import Idealize.ShloMosaic.Lib.ValueIdx
import Idealize.ShloMosaic.Lib.Pipeline.Value

noncomputable section

namespace Idealize.ShloMosaic.HostContract

open Idealize.ShloMosaic Idealize.ShloMosaic.ValueIdx

/-! ## A contraction of two matrices, and of two stacks of matrices row against row, read at one entry -/

section Contractions
variable {M K N : Nat}

/-- The dimension numbers "contract the left operand's axis 1 with the right operand's axis 0, no batch axis" for an
    `M × K` by `K × N` product, under conditions `w` stated elsewhere. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

variable (w : DotDims.WF ⟨2, ![M, K]⟩ ⟨2, ![K, N]⟩ ⟨2, ![M, N]⟩ [1] [0] [0] [1] [] [])

/-- The left operand is read on the row of the output entry, -/
theorem plain_lhs_row (j : (⟨2, ![M, N]⟩ : Shape).Idx) (q : (plainDims w).contr.Idx) :
    ((plainDims w).lhsIdx j q 0).val = (j 0).val := rfl
/-- at the contracted coordinate; -/
theorem plain_lhs_col (j : (⟨2, ![M, N]⟩ : Shape).Idx) (q : (plainDims w).contr.Idx) :
    ((plainDims w).lhsIdx j q 1).val = (q ⟨0, Nat.one_pos⟩).val :=
  (plainDims w).lhsIdx_val_of_single rfl j q
/-- the right operand at the contracted coordinate, -/
theorem plain_rhs_row (j : (⟨2, ![M, N]⟩ : Shape).Idx) (q : (plainDims w).contr.Idx) :
    ((plainDims w).rhsIdx j q 0).val = (q ⟨0, Nat.one_pos⟩).val :=
  (plainDims w).rhsIdx_val_of_single rfl j q
/-- on the column of the output entry. -/
theorem plain_rhs_col (j : (⟨2, ![M, N]⟩ : Shape).Idx) (q : (plainDims w).contr.Idx) :
    ((plainDims w).rhsIdx j q 1).val = (j 1).val := rfl

/-- The product at an entry: `(A · B) (i, l) = ∑ k, A (i, k) * B (k, l)`. -/
theorem plain_dot_apply {φ₁ φ₂ : FTy} (prec : Option ContractPrecision)
    (A : FVec Ideal ⟨2, ![M, K]⟩ φ₁) (B : FVec Ideal ⟨2, ![K, N]⟩ φ₂) (i : Fin M) (l : Fin N) :
    Host.dotGeneral (plainDims w) prec A B (ix2 i l) = ∑ k : Fin K, A (ix2 i k) * B (ix2 k l) := by
  show FloatOps.dotGeneral _ prec _ A B (ix2 i l) = _
  rw [Ideal.dotGeneral_apply, ← Equiv.sum_comp (contrEquiv1 (plainDims w) K rfl rfl).symm]
  refine Finset.sum_congr rfl fun k _ => ?_
  have hk := contrEquiv1_symm_val (plainDims w) K rfl rfl k
  have el : (plainDims w).lhsIdx (ix2 i l) ((contrEquiv1 (plainDims w) K rfl rfl).symm k) = ix2 i k :=
    funext fun c => Fin.ext (by
      match c with
      | ⟨0, _⟩ => exact plain_lhs_row w _ _
      | ⟨1, _⟩ => exact (plain_lhs_col w _ _).trans hk)
  have er : (plainDims w).rhsIdx (ix2 i l) ((contrEquiv1 (plainDims w) K rfl rfl).symm k) = ix2 k l :=
    funext fun c => Fin.ext (by
      match c with
      | ⟨0, _⟩ => exact (plain_rhs_row w _ _).trans hk
      | ⟨1, _⟩ => exact plain_rhs_col w _ _)
  rw [el, er]

end Contractions

section Gram
variable {G m K : Nat}

/-- The dimension numbers "batch axis 0 of both operands, contract the last axis of both" for two stacks of `m × K`
    matrices: member `g` of the result is the table of inner products of the rows of the two members `g`. -/
abbrev gramDims (w : DotDims.WF ⟨3, ![G, m, K]⟩ ⟨3, ![G, m, K]⟩ ⟨3, ![G, m, m]⟩ [2] [2] [1] [1] [0] [0]) :
    DotDims ⟨3, ![G, m, K]⟩ ⟨3, ![G, m, K]⟩ ⟨3, ![G, m, m]⟩ := ⟨[2], [2], [1], [1], [0], [0], w⟩

variable (w : DotDims.WF ⟨3, ![G, m, K]⟩ ⟨3, ![G, m, K]⟩ ⟨3, ![G, m, m]⟩ [2] [2] [1] [1] [0] [0])

/-- The left operand is read in the member of the output entry, -/
theorem gram_lhs_batch (j : (⟨3, ![G, m, m]⟩ : Shape).Idx) (q : (gramDims w).contr.Idx) :
    ((gramDims w).lhsIdx j q 0).val = (j 0).val := rfl
/-- on the row the entry's middle coordinate names, -/
theorem gram_lhs_row (j : (⟨3, ![G, m, m]⟩ : Shape).Idx) (q : (gramDims w).contr.Idx) :
    ((gramDims w).lhsIdx j q 1).val = (j 1).val := rfl
/-- at the contracted coordinate; -/
theorem gram_lhs_col (j : (⟨3, ![G, m, m]⟩ : Shape).Idx) (q : (gramDims w).contr.Idx) :
    ((gramDims w).lhsIdx j q 2).val = (q ⟨0, Nat.one_pos⟩).val :=
  (gramDims w).lhsIdx_val_of_single rfl j q
/-- the right operand in the same member, -/
theorem gram_rhs_batch (j : (⟨3, ![G, m, m]⟩ : Shape).Idx) (q : (gramDims w).contr.Idx) :
    ((gramDims w).rhsIdx j q 0).val = (j 0).val := rfl
/-- on the row the entry's last coordinate names, -/
theorem gram_rhs_row (j : (⟨3, ![G, m, m]⟩ : Shape).Idx) (q : (gramDims w).contr.Idx) :
    ((gramDims w).rhsIdx j q 1).val = (j 2).val := rfl
/-- at the contracted coordinate. -/
theorem gram_rhs_col (j : (⟨3, ![G, m, m]⟩ : Shape).Idx) (q : (gramDims w).contr.Idx) :
    ((gramDims w).rhsIdx j q 2).val = (q ⟨0, Nat.one_pos⟩).val :=
  (gramDims w).rhsIdx_val_of_single rfl j q

/-- The table at an entry: `gram (g, i, l) = ∑ d, A (g, i, d) * B (g, l, d)`. -/
theorem gram_dot_apply {φ₁ φ₂ : FTy} (prec : Option ContractPrecision)
    (A : FVec Ideal ⟨3, ![G, m, K]⟩ φ₁) (B : FVec Ideal ⟨3, ![G, m, K]⟩ φ₂) (g : Fin G) (i l : Fin m) :
    Host.dotGeneral (gramDims w) prec A B (ix3 g i l) = ∑ d : Fin K, A (ix3 g i d) * B (ix3 g l d) := by
  show FloatOps.dotGeneral _ prec _ A B (ix3 g i l) = _
  rw [Ideal.dotGeneral_apply, ← Equiv.sum_comp (contrEquiv1 (gramDims w) K rfl rfl).symm]
  refine Finset.sum_congr rfl fun k _ => ?_
  have hk := contrEquiv1_symm_val (gramDims w) K rfl rfl k
  have el : (gramDims w).lhsIdx (ix3 g i l) ((contrEquiv1 (gramDims w) K rfl rfl).symm k) = ix3 g i k :=
    funext fun c => Fin.ext (by
      match c with
      | ⟨0, _⟩ => exact gram_lhs_batch w _ _
      | ⟨1, _⟩ => exact gram_lhs_row w _ _
      | ⟨2, _⟩ => exact (gram_lhs_col w _ _).trans hk)
  have er : (gramDims w).rhsIdx (ix3 g i l) ((contrEquiv1 (gramDims w) K rfl rfl).symm k) = ix3 g l k :=
    funext fun c => Fin.ext (by
      match c with
      | ⟨0, _⟩ => exact gram_rhs_batch w _ _
      | ⟨1, _⟩ => exact gram_rhs_row w _ _
      | ⟨2, _⟩ => exact (gram_rhs_col w _ _).trans hk)
  rw [el, er]

end Gram

/-! ## Broadcasts read at an index -/

section Broadcasts
variable {α : Type}

/-- A vector of `K` entries laid as one row and copied down `M` rows reads, at `(b, k)`, its entry `k`. -/
theorem bias_apply {M K : Nat} (h1 : (⟨1, ![K]⟩ : Shape).BroadcastsInDim ⟨2, ![1, K]⟩ ![1])
    (h2 : (⟨2, ![1, K]⟩ : Shape).BroadcastsInDim ⟨2, ![M, K]⟩ ![0, 1]) (x : (⟨1, ![K]⟩ : Shape).Idx → α)
    (b : Fin M) (k : Fin K) :
    broadcastInDim ⟨2, ![M, K]⟩ ![0, 1] h2 (broadcastInDim ⟨2, ![1, K]⟩ ![1] h1 x) (ix2 b k) = x (ix1 k) := by
  have hk : k.val < K := k.isLt
  refine (broadcastInDim_apply ![0, 1] h2 _ (ix2 b k) (ix2 (0 : Fin 1) k) ?_).trans
    (broadcastInDim_apply ![1] h1 x (ix2 (0 : Fin 1) k) (ix1 k) ?_)
  · intro a
    match a with
    | ⟨0, _⟩ => show (0 : ℕ) = if (1 : ℕ) = 1 then 0 else _; rw [if_pos rfl]
    | ⟨1, _⟩ =>
      show k.val = if K = 1 then 0 else k.val
      split
      · omega
      · rfl
  · intro a
    match a with
    | ⟨0, _⟩ =>
      show k.val = if K = 1 then 0 else k.val
      split
      · omega
      · rfl

/-- A `G × n` array given a middle axis of extent one reads, at `(g, 0, d)`, its entry `(g, d)`. -/
theorem unit_axis_apply {G n : Nat} (h : (⟨2, ![G, n]⟩ : Shape).BroadcastsInDim ⟨3, ![G, 1, n]⟩ ![0, 2])
    (x : (⟨2, ![G, n]⟩ : Shape).Idx → α) (g : Fin G) (z : Fin 1) (d : Fin n) :
    broadcastInDim ⟨3, ![G, 1, n]⟩ ![0, 2] h x (ix3 g z d) = x (ix2 g d) := by
  have hg : g.val < G := g.isLt
  have hd : d.val < n := d.isLt
  refine broadcastInDim_apply ![0, 2] h x (ix3 g z d) (ix2 g d) ?_
  intro a
  match a with
  | ⟨0, _⟩ =>
    show g.val = if G = 1 then 0 else g.val
    split
    · omega
    · rfl
  | ⟨1, _⟩ =>
    show d.val = if n = 1 then 0 else d.val
    split
    · omega
    · rfl

end Broadcasts

end Idealize.ShloMosaic.HostContract

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KernelStages.lean ====
import proofs.«411673_j62955630625135_2_alg».proof.Proof.Gen.KernelIdeal.Skeleton
import proofs.«411673_j62955630625135_2_alg».proof.Proof.Spec
import proofs.«411673_j62955630625135_2_alg».proof.Proof.LibScatterRows
import proofs.«411673_j62955630625135_2_alg».proof.Proof.LibColumnLayout
import proofs.«411673_j62955630625135_2_alg».proof.Proof.LibHostContract
import proofs.«411673_j62955630625135_2_alg».proof.Proof.LibPlainMatmul
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.Stages

open Cert.KernelIdeal Cert.KernelIdeal.Gen Idealize.ShloMosaic Idealize.ShloMosaic.ValueIdx
open Idealize.ShloMosaic.StableHlo.Predicate (ixP ij i1q gather_take bcast_col1 bcast_of_col bcast_scalar)

variable {F : FTy → Type} [FloatOps F]

/-- The weight gathered for each support point: a negative segment id is first moved up by 256. -/
def gatherW (x2 : FVec F S1x256 .f32) (x4 : IVec S8192 32) : FVec F S8192 .f32 :=
  Host.gather gather_S256_S8192x1_S8192_n_0_n_n_0_1_1 (shapeCast S256 x2 shapeCasts_S1x256_S256)
    (broadcastInDim S8192x1 ![0] bcast_S8192_S8192x1_0
      (select (cmpi .slt x4 (broadcastInDim S8192 ![] bcast_S_S8192 (constantI S_ 32 0#32)))
        (addi x4 (broadcastInDim S8192 ![] bcast_S_S8192 (constantI S_ 32 256#32))) x4))

/-- The weighted Gram matrix as the host computes it before the region. -/
def gramArr (x1 : FVec F S8192x256 .f32) (x2 : FVec F S1x256 .f32) (x4 : IVec S8192 32) : FVec F S256x256 .bf16 :=
  truncf .bf16 (Host.dotGeneral dot_S256x8192_S8192x256_S256x256_1_0_0_1_n_n (some .fp32)
    (transpose S256x8192 [1, 0] (mulf x1 (broadcastInDim S8192x256 ![0, 1] bcast_S8192x1_S8192x256_0_1
      (broadcastInDim S8192x1 ![0] bcast_S8192_S8192x1_0 (gatherW x2 x4)))) transposes_S8192x256_S256x8192_1_0) x1) bitsLt_bf16_f32

/-- The host operations after the region: the per-atom column summed into the structures its segment ids name. -/
def tail (u : FVec F S32768x1 .f32) (x3 : IVec S32768 32) : FVec F S512x1 .f32 :=
  shapeCast S512x1 (Host.scatterAdd scatter_S512_S32768x1_S32768_n_0_0_1
    (broadcastInDim S512 ![] bcast_S_S512 (constant S_ .f32 0x00000000#32))
    (broadcastInDim S32768x1 ![0] bcast_S32768_S32768x1_0 x3)
    (shapeCast S32768 u shapeCasts_S32768x1_S32768)) shapeCasts_S512_S512x1

/-- The training structure whose weight is gathered for support point `c`: its segment id, kept inside the table. -/
def gIdx (x4 : IVec S8192 32) (c : Fin 8192) : Fin 256 := ⟨min (x4 (ix1 c)).toInt.toNat 255, by omega⟩

/-- A word that is not negative is not below zero in the signed order. -/
theorem slt_zero_of_nonneg (a : BitVec 32) (h : 0 ≤ a.toInt) : IntOp.cmpi .slt a 0#32 = 0#1 := by
  unfold IntOp.cmpi
  have : a.slt 0#32 = false := by
    rw [BitVec.slt]
    simp only [BitVec.toInt_zero]
    exact decide_eq_false (by omega)
  rw [this]; rfl

/-- With a segment id that is not negative the gathered weight is the table's entry at the id (kept inside the table). -/
theorem gatherW_apply (x2 : FVec F S1x256 .f32) (x4 : IVec S8192 32) (c : Fin 8192) (h : 0 ≤ (x4 (ix1 c)).toInt) :
    gatherW x2 x4 (ix1 c) = x2 (ix2 (0 : Fin 1) (gIdx x4 c)) := by
  have e1 : (ix1 c : S8192.Idx) = Shape.Idx.ofFin c := funext fun a => by match a with | ⟨0, _⟩ => rfl
  have e2 : ∀ k : Fin 256, (Shape.Idx.ofFin k : S256.Idx) = ix1 k := fun k => funext fun a => by match a with | ⟨0, _⟩ => rfl
  have hw : (broadcastInDim S8192x1 ![0] bcast_S8192_S8192x1_0
      (select (cmpi .slt x4 (broadcastInDim S8192 ![] bcast_S_S8192 (constantI S_ 32 0#32)))
        (addi x4 (broadcastInDim S8192 ![] bcast_S_S8192 (constantI S_ 32 256#32))) x4)) (ixP c) = x4 (ix1 c) := by
    rw [bcast_col1, ← e1]
    show Scalar.select (IntOp.cmpi .slt (x4 (ix1 c)) 0#32) _ (x4 (ix1 c)) = _
    rw [slt_zero_of_nonneg _ h, select_zero]
  unfold gatherW
  rw [e1, gather_take _ rfl rfl rfl rfl _ _ c (by decide), e2, shapeCast_1a_a_apply]
  refine congrArg (fun k => x2 (ix2 (0 : Fin 1) k)) (Fin.ext ?_)
  show min _ (256 - 1) = min (x4 (ix1 c)).toInt.toNat 255
  rw [hw]

/-- An entry of the Gram matrix: the sum over the support points of the point's two features times its weight. -/
theorem gramArr_apply (x1 : FVec Ideal S8192x256 .f32) (x2 : FVec Ideal S1x256 .f32) (x4 : IVec S8192 32)
    (hcol : ∀ c : Fin 8192, 0 ≤ (x4 (ix1 c)).toInt) (e d : Fin 256) :
    gramArr (F := Ideal) x1 x2 x4 (ix2 e d)
      = Spec.gram (fun c k => x1 (ix2 c k)) (fun t => x2 (ix2 (0 : Fin 1) t)) (gIdx x4) e d := by
  unfold gramArr Spec.gram
  rw [truncf_apply]
  show Host.dotGeneral (HostContract.plainDims dot_S256x8192_S8192x256_S256x256_1_0_0_1_n_n_wf) (some .fp32) _ _ (ix2 e d) = _
  rw [HostContract.plain_dot_apply]
  refine Finset.sum_congr rfl fun c _ => ?_
  rw [transpose_ix2_apply, mulf_apply]
  have eij : (ix2 c e : S8192x256.Idx) = ij c e := funext fun a => by match a with | ⟨0, _⟩ => rfl | ⟨1, _⟩ => rfl
  have e1 : (Shape.Idx.ofFin c : S8192.Idx) = ix1 c := funext fun a => by match a with | ⟨0, _⟩ => rfl
  rw [eij, StableHlo.Predicate.bcast_rows, e1, gatherW_apply _ _ _ (hcol c), ← eij]

/-- A row sum over the 256 lanes. -/
theorem rowSum_apply (src : FVec Ideal S2048x256 .f32) (p : Fin 2048) :
    multiReduction .add [1] S2048 src 0x00000000#32 reduces_S2048x256_S2048 (.inl rfl) rfl (ix1 p) = ∑ k : Fin 256, src (ix2 p k) := by
  refine (Ideal.multiReduction_add_single src 0x00000000#32 reduces_S2048x256_S2048 (.inl rfl) rfl (ix1 p)).trans ?_
  refine Finset.sum_congr rfl fun k _ => congrArg src (funext fun a => Fin.ext ?_)
  match a with
  | ⟨0, _⟩ => rfl
  | ⟨1, _⟩ => rfl

/-- The block's matrix product at an entry. -/
theorem mm_apply (a : FVec Ideal S2048x256 .bf16) (b : FVec Ideal S256x256 .bf16) (p : Fin 2048) (d : Fin 256) :
    matmul dot_S2048x256_S256x256_S2048x256_1_0_0_1_n_n none a b (constant S2048x256 .f32 0x00000000#32) (ix2 p d)
      = ∑ e : Fin 256, a (ix2 p e) * b (ix2 e d) :=
  PlainMatmul.matmul_zero_apply 2048 256 256 none a b p d

/-- What the body stores for row `p` of its block: the row's quadratic form in the matrix block over its squared norm. -/
theorem pay_apply (v0 : FVec Ideal S2048x256 .f32) (v2 : FVec Ideal S256x256 .bf16) (p : Fin 2048) (u : Fin 1) :
    k0_pay1 (F := Ideal) v0 v2 (ix2 p u)
      = Ideal.div (∑ d : Fin 256, (∑ e : Fin 256, v0 (ix2 p e) * v2 (ix2 e d)) * v0 (ix2 p d)) (∑ d : Fin 256, v0 (ix2 p d) * v0 (ix2 p d)) := by
  unfold k0_pay1
  refine (divf_apply _ _ (ix2 p u)).trans ?_
  refine (congrArg₂ Ideal.div (shapeCast_a_a1_apply _ shapeCasts_S2048_S2048x1 p u) (shapeCast_a_a1_apply _ shapeCasts_S2048_S2048x1 p u)).trans ?_
  refine (congrArg₂ Ideal.div (rowSum_apply _ p) (rowSum_apply _ p)).trans ?_
  refine congrArg₂ Ideal.div (Finset.sum_congr rfl fun d _ => ?_) (Finset.sum_congr rfl fun d _ => rfl)
  refine (mulf_apply _ _ (ix2 p d)).trans ?_
  refine congrArg (· * v0 (ix2 p d)) ((mm_apply _ _ p d).trans ?_)
  refine Finset.sum_congr rfl fun e _ => ?_
  rw [shapeCast_self]
  rfl

/-- An [a, 1] column cast to the [a] vector reads, at `p`, the column at (p, 0). -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The tail at structure `r`: the per-atom column summed over the atoms whose segment id is `r`. -/
theorem tail_apply (u : FVec Ideal S32768x1 .f32) (x3 : IVec S32768 32) (r : Fin 512) (z : Fin 1) :
    tail (F := Ideal) u x3 (ix2 r z)
      = ∑ p : Fin 32768, if (x3 (ix1 p)).toInt = (r.val : Int) then u (ix2 p (0 : Fin 1)) else 0 := by
  unfold tail
  rw [shapeCast_a_a1_apply]
  simp only [Host.scatterAdd, Ideal.hostScatterAdd_def]
  rw [LibScatterRows.scatterAdd_line_apply _ rfl rfl rfl rfl, bcast_scalar _ (by decide)]
  show Ideal.ofBits .f32 0x00000000#32 + _ = _
  rw [Ideal.ofBits_zero_f32, zero_add]
  refine Finset.sum_congr rfl fun p _ => ?_
  have e1 : (Shape.Idx.ofFin p : S32768.Idx) = ix1 p := funext fun a => by match a with | ⟨0, _⟩ => rfl
  rw [bcast_col1, e1, shapeCast_a1_a_apply]

end Cert.KernelIdeal.Stages

end
-- ==== Proof.KernelOut.lean ====
/-
  The kernel's host tail applied to the region's column is the specification's `kerOut` of the inputs read by coordinates.
-/
import proofs.«411673_j62955630625135_2_alg».proof.Proof.KernelStages

noncomputable section

open scoped BigOperators

namespace Cert.KernelIdeal.Stages

open Cert.KernelIdeal Cert.KernelIdeal.Gen Idealize.ShloMosaic Idealize.ShloMosaic.ValueIdx

/-- The column the region writes: for atom `i` the quadratic form of its row in the matrix `M` over its squared norm. -/
def uArr (x0 : FVec Ideal S32768x256 .f32) (M : FVec Ideal S256x256 .bf16) : FVec Ideal S32768x1 .f32 := fun j =>
  let i : Fin 32768 := j 0
  Ideal.div (∑ d : Fin 256, (∑ e : Fin 256, x0 (ix2 i e) * M (ix2 e d)) * x0 (ix2 i d)) (∑ d : Fin 256, x0 (ix2 i d) * x0 (ix2 i d))

/-- The kernel's whole result as a function of the five input arrays. -/
def kernelResult (x0 : FVec Ideal S32768x256 .f32) (x1 : FVec Ideal S8192x256 .f32) (x2 : FVec Ideal S1x256 .f32)
    (x3 : IVec S32768 32) (x4 : IVec S8192 32) : FVec Ideal S512x1 .f32 :=
  tail (F := Ideal) (uArr x0 (gramArr (F := Ideal) x1 x2 x4)) x3

/-- With segment ids that are not negative, the kernel's result for structure `r` is the sum over the structure's atoms
    of the atom's quadratic form in the weighted Gram matrix over its squared norm. -/
theorem kernel_out (x0 : FVec Ideal S32768x256 .f32) (x1 : FVec Ideal S8192x256 .f32) (x2 : FVec Ideal S1x256 .f32)
    (x3 : IVec S32768 32) (x4 : IVec S8192 32) (hcol : ∀ c : Fin 8192, 0 ≤ (x4 (ix1 c)).toInt) (r : Fin 512) (z : Fin 1) :
    kernelResult x0 x1 x2 x3 x4 (ix2 r z)
      = Spec.kerOut (fun i d => x0 (ix2 i d)) (fun c d => x1 (ix2 c d)) (fun t => x2 (ix2 (0 : Fin 1) t))
          (fun (i : Fin 32768) (r : Fin 512) => (x3 (ix1 i)).toInt = (r.val : Int)) (gIdx x4) r := by
  unfold kernelResult
  rw [tail_apply]
  unfold Spec.kerOut
  refine Finset.sum_congr rfl fun p _ => ?_
  refine if_congr Iff.rfl ?_ rfl
  unfold Spec.quad Spec.sq
  show Ideal.div (∑ d : Fin 256, (∑ e : Fin 256, x0 (ix2 p e) * gramArr (F := Ideal) x1 x2 x4 (ix2 e d)) * x0 (ix2 p d))
      (∑ d : Fin 256, x0 (ix2 p d) * x0 (ix2 p d)) = _
  refine congrArg₂ Ideal.div (Finset.sum_congr rfl fun d _ => ?_) rfl
  refine congrArg (· * x0 (ix2 p d)) (Finset.sum_congr rfl fun e _ => ?_)
  rw [gramArr_apply _ _ _ hcol]

end Cert.KernelIdeal.Stages

end
-- ==== Proof.KernelValue.lean ====
/-
  The kernel's result array after the run, read off the frame: the region leaves in its output array, row by row, each
  atom's quadratic form in the Gram matrix over the row's squared norm; the host operations after it sum that column
  into the structures the atoms' segment ids name.
-/
import proofs.«411673_j62955630625135_2_alg».proof.Proof.Gen.KernelIdeal.Frame
import proofs.«411673_j62955630625135_2_alg».proof.Proof.KernelOut
import Idealize.ShloMosaic.Lib.StableHlo.Run

set_option maxRecDepth 16384

noncomputable section

open scoped BigOperators

namespace Cert.KernelIdeal.KValue

open Cert.KernelIdeal Cert.KernelIdeal.Gen Cert.KernelIdeal.Stages Idealize.ShloMosaic Idealize.ShloMosaic.TcCoe Idealize.SL.Sem
open Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The blocks the body reads at point `t` and the two arrays the region finds, at their literal types. -/
abbrev xblk (c : Dev nD) (t : Fin cfg0.N) : FVec Ideal S2048x256 .f32 := iblk m c 0 t
abbrev mblk (c : Dev nD) (t : Fin cfg0.N) : FVec Ideal S256x256 .bf16 := iblk m c 1 t
abbrev xarr (c : Dev nD) : FVec Ideal S32768x256 .f32 := V m c main_arg0
abbrev marr (c : Dev nD) : FVec Ideal S256x256 .bf16 := V m c main_v13

/-- The region finds the Gram matrix in its second window's array. -/
theorem marr_eq (c : Dev nD) :
    marr m c = gramArr (F := Ideal) (m ((c : Thread nD τ).loc main_arg1)) (m ((c : Thread nD τ).loc main_arg2)) (m ((c : Thread nD τ).loc main_arg4)) := by
  show StableHlo.after hostOps0 (fun b => m (c, b)) (Proc.devRef .tc main_v13) = _
  after_results
  rfl

/-- … and the power spectrum as launched in its first. -/
theorem xarr_eq (c : Dev nD) : xarr m c = m ((c : Thread nD τ).loc main_arg0) := V_main_arg0 m c

theorem hz : (![0, 0] : Fin 2 → Nat) = fun _ => 0 := funext fun a => by fin_cases a <;> rfl

/-- The printed index maps over the grid: the power-spectrum block and the output block move together down the rows,
    the matrix block stays. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 15 :=
  (by decide +kernel : ∀ t : Fin grid0.N, _)

/-- Every one of the sixteen row blocks is some point's. -/
theorem idx_onto : ∀ q : Fin 16, ∃ t : Fin cfg0.N, win0_2.index t = ![q.val, 0] :=
  (by decide +kernel : ∀ q : Fin 16, ∃ t : Fin grid0.N, win0_2.index t = ![q.val, 0])

/-- Row `p` of point `t`'s power-spectrum block is row `t · 2048 + p` of the array. -/
theorem xblk_apply (c : Dev nD) (t : Fin cfg0.N) (p : Fin 2048) (k : Fin 256) (q : Fin 32768)
    (hq : q.val = win0_2.index t (0 : Fin 2) * 2048 + p.val) :
    xblk m c t (ix2 p k) = xarr m c (ix2 q k) := by
  obtain ⟨e0, e1, e2, e3, e4, e5⟩ := idx_facts t
  show V m c main_arg0 (((cfg0.win 0).blk t).view.emb (ix2 p k)) = V m c main_arg0 (ix2 q k)
  refine congrArg (V m c main_arg0) (funext fun a => Fin.ext ?_)
  match a with
  | ⟨0, _⟩ => show win0_0.index t (0 : Fin 2) * 2048 + 1 * p.val = q.val; omega
  | ⟨1, _⟩ => show win0_0.index t (1 : Fin 2) * 256 + 1 * k.val = k.val; omega

/-- The matrix block is the whole matrix at every point. -/
theorem mblk_apply (c : Dev nD) (t : Fin cfg0.N) (e d : Fin 256) : mblk m c t (ix2 e d) = marr m c (ix2 e d) := by
  obtain ⟨e0, e1, e2, e3, e4, e5⟩ := idx_facts t
  show V m c main_v13 (((cfg0.win 1).blk t).view.emb (ix2 e d)) = V m c main_v13 (ix2 e d)
  refine congrArg (V m c main_v13) (funext fun a => Fin.ext ?_)
  match a with
  | ⟨0, _⟩ => show win0_1.index t (0 : Fin 2) * 256 + 1 * e.val = e.val; omega
  | ⟨1, _⟩ => show win0_1.index t (1 : Fin 2) * 256 + 1 * d.val = d.val; omega

/-- What point `t` writes back is block `t` of the column. -/
theorem flushed_eq (c : Dev nD) (t : Fin cfg0.N) :
    (dats m 0 c).flushed 2 t = ((cfg0.win 2).blk t).view.read (Elt Ideal) (uArr (xarr m c) (marr m c)) := by
  show (cfg0.win 2).cut (grid0.coords t) ((dats m 0 c).after 2 t) = _
  rw [after0_2]
  unfold out0_2
  rw [View.canon_unit_zero hz]
  simp only [View.ld_unit_zero (S := S2048x256) hz, View.ld_unit_zero (S := S256x256) hz]
  obtain ⟨e0, e1, e2, e3, e4, e5⟩ := idx_facts t
  funext j
  obtain ⟨p, u, rfl⟩ : ∃ (p : Fin 2048) (u : Fin 1), j = ix2 p u := ⟨j 0, j 1, eq_ix2 j⟩
  have hp : p.val < 2048 := p.isLt
  let q : Fin 32768 := ⟨win0_2.index t (0 : Fin 2) * 2048 + p.val, by omega⟩
  show k0_pay1 (F := Ideal) (xblk m c t) (mblk m c t) (ix2 p u) = uArr (xarr m c) (marr m c) (((cfg0.win 2).blk t).view.emb (ix2 p u))
  refine (pay_apply (xblk m c t) (mblk m c t) p u).trans ?_
  have hemb : (((cfg0.win 2).blk t).view.emb (ix2 p u)) (0 : Fin 2) = q := Fin.ext (by
    show win0_2.index t (0 : Fin 2) * 2048 + 1 * p.val = win0_2.index t (0 : Fin 2) * 2048 + p.val; omega)
  unfold uArr
  show _ = Ideal.div (∑ d : Fin 256, (∑ e : Fin 256, xarr m c (ix2 ((((cfg0.win 2).blk t).view.emb (ix2 p u)) (0 : Fin 2)) e) * marr m c (ix2 e d)) * xarr m c (ix2 ((((cfg0.win 2).blk t).view.emb (ix2 p u)) (0 : Fin 2)) d))
      (∑ d : Fin 256, xarr m c (ix2 ((((cfg0.win 2).blk t).view.emb (ix2 p u)) (0 : Fin 2)) d) * xarr m c (ix2 ((((cfg0.win 2).blk t).view.emb (ix2 p u)) (0 : Fin 2)) d))
  rw [hemb]
  refine congrArg₂ Ideal.div (Finset.sum_congr rfl fun d _ => ?_) (Finset.sum_congr rfl fun d _ => ?_)
  · rw [xblk_apply m c t p d q rfl]
    refine congrArg (· * xarr m c (ix2 q d)) (Finset.sum_congr rfl fun e _ => ?_)
    rw [xblk_apply m c t p e q rfl, mblk_apply]
  · rw [xblk_apply m c t p d q rfl]

/-- An index of the column is in point `t`'s block iff each coordinate is in the block's range on its axis. -/
theorem mem_blk (t : Fin cfg0.N) (i : S32768x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v14).slice (win0_2.rect t)).set ↔ _
  rw [View.set_slice_whole, Rect.mem_set_unit]
  exact Iff.rfl

/-- The sixteen blocks cover the column: row `i` is in the block of the point with block index `i / 2048`. -/
theorem cover (i : S32768x1.Idx) : ∃ t : Fin cfg0.N, (cfg0.win 2).flush t = true ∧ i ∈ ((cfg0.win 2).blk t).view.set := by
  have hi0 : (i 0).val < 32768 := (i 0).isLt
  have hi1 : (i 1).val < 1 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- The output array after the region: the column of the arrays as launched. -/
theorem final (c : Dev nD) : (dats m 0 c).arrAt 2 cfg0.N
    = uArr (m ((c : Thread nD τ).loc main_arg0)) (gramArr (F := Ideal) (m ((c : Thread nD τ).loc main_arg1)) (m ((c : Thread nD τ).loc main_arg2)) (m ((c : Thread nD τ).loc main_arg4))) := by
  rw [← xarr_eq m c, ← marr_eq m c]
  exact (dats m 0 c).arrAt_eq_of_cover 2 (uArr (xarr m c) (marr m c)) (fun t _ => flushed_eq m c t) cover

/-- The result buffer after the host operations that follow the region. -/
theorem tail_eq (c : Dev nD) :
    Pipeline.afterTail₀ cfgs (dats m) 0 (V0 m) [hostOps1] c main_v19
      = tail (F := Ideal) ((dats m 0 c).arrAt 2 cfg0.N) (m ((c : Thread nD τ).loc main_arg3)) := by
  unfold Pipeline.afterTail₀
  show StableHlo.after hostOps1 _ (Proc.devRef .tc main_v19) = _
  after_results
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h14 : Pipeline.withArrays (cfgs 0).spec c (V0 m c) (fun w => (dats m 0 c).arrAt w (cfgs 0).N) (Proc.devRef .tc main_v14)
      = (dats m 0 c).arrAt 2 cfg0.N :=
    Pipeline.withArrays_arr spec0 launch0.win.arr_inj c _ _ 2
  rw [h3, h14]
  rfl

/-- The run, read: every weakly fair execution ends with the result buffer at the kernel's result function of the
    argument arrays as launched, and the arguments unchanged. -/
theorem run : θ_run defs (onTc (τ := τ) (main (F := Ideal))) ⟨m, fun _ => 0, ρ⟩ fun r => ∀ c : Dev nD,
      r.2.mem ((c : Thread nD τ).loc main_v19) = kernelResult (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).2 main_v19 (Pipeline.mem_restRefs_of main_v19 (by decide) (by decide))).trans
        ((tail_eq m c).trans (by rw [final m c]; rfl)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KValue

end
-- ==== Proof.RefValue.lean ====
/-
  The reference's result, stage by stage, is the specification's `refOut` of the input arrays read by coordinates.
-/
import proofs.«411673_j62955630625135_2_alg».proof.Proof.Gen.ReferenceIdeal.Read
import proofs.«411673_j62955630625135_2_alg».proof.Proof.Spec
import proofs.«411673_j62955630625135_2_alg».proof.Proof.LibScatterRows
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate (ixP)

/-- The power spectrum, the support points and the weights read by coordinates, and the two membership relations. -/
abbrev P (x0 : FVec Ideal S32768x256 .f32) : Fin 32768 → Fin 256 → EReal := fun i d => x0 (ix2 i d)
abbrev S (x1 : FVec Ideal S8192x256 .f32) : Fin 8192 → Fin 256 → EReal := fun c d => x1 (ix2 c d)
abbrev W (x2 : FVec Ideal S1x256 .f32) : Fin 256 → EReal := fun t => x2 (ix2 (0 : Fin 1) t)
abbrev rsel (x3 : IVec S32768 32) : Fin 32768 → Fin 512 → Prop := fun i r => (x3 (ix1 i)).toInt = (r.val : Int)
abbrev csel (x4 : IVec S8192 32) : Fin 8192 → Fin 256 → Prop := fun c t => (x4 (ix1 c)).toInt = (t.val : Int)

variable (x0 : FVec Ideal S32768x256 .f32) (x1 : FVec Ideal S8192x256 .f32) (x2 : FVec Ideal S1x256 .f32)
  (x3 : IVec S32768 32) (x4 : IVec S8192 32)

/-- The squared norm of atom `i`'s row. -/
theorem sq_apply (i : Fin 32768) : val_main_call0_v1 (F := Ideal) x0 (ix1 i) = Spec.sq (P x0) i := by
  rw [val_main_call0_v1_apply]
  show Ideal.ofBits .f32 0x00000000#32 + _ = _
  rw [Ideal.ofBits_zero_f32, zero_add]
  refine Finset.sum_congr rfl fun k _ => ?_
  rw [val_main_call0_v0_apply]
  have e : idx_main_call0_v1 (ix1 i) k = ix2 i k := funext fun a => Fin.ext (by match a with | ⟨0, _⟩ => rfl | ⟨1, _⟩ => rfl)
  rw [e]; rfl

/-- The normalised row. -/
theorem unit_apply (i : Fin 32768) (d : Fin 256) : val_main_v2 (F := Ideal) x0 (ix2 i d) = Spec.unit (P x0) i d := by
  rw [val_main_v2_apply, val_main_v1_apply, val_main_v0_apply, val_main_call0_v2_apply]
  have e : idx_main_call0_v2 (idx_main_v1 (ix2 i d)) = ix1 i := funext fun a => Fin.ext (by match a with | ⟨0, _⟩ => rfl)
  rw [e, sq_apply]
  rfl

/-- The squared similarity of atom `i` and support point `c`. -/
theorem cosSq_apply (i : Fin 32768) (c : Fin 8192) : val_main_v5 (F := Ideal) x0 x1 (ix2 i c) = Spec.cosSq (P x0) (S x1) i c := by
  have h4 : val_main_v4 (F := Ideal) x0 x1 (ix2 i c) = ∑ d : Fin 256, Spec.unit (P x0) i d * S x1 c d := by
    rw [val_main_v4_apply]
    refine Finset.sum_congr rfl fun k _ => ?_
    have el : lidx_main_v4 (ix2 i c) k = ix2 i k := funext fun a => Fin.ext (by match a with | ⟨0, _⟩ => rfl | ⟨1, _⟩ => rfl)
    have er : idx_main_v3 (ridx_main_v4 (ix2 i c) k) = ix2 c k := funext fun a => Fin.ext (by match a with | ⟨0, _⟩ => rfl | ⟨1, _⟩ => rfl)
    rw [el, unit_apply, val_main_v3_apply, er]
  rw [val_main_v5_apply, h4]
  rfl

/-- … summed over the atoms of structure `r`. -/
theorem rowSum_apply (r : Fin 512) (c : Fin 8192) :
    val_main_v8 (F := Ideal) x0 x1 x3 (ix2 r c) = Spec.rowSum (P x0) (S x1) (rsel x3) r c := by
  unfold val_main_v8 Spec.rowSum
  simp only [Host.scatterAdd, Ideal.hostScatterAdd_def]
  rw [LibScatterRows.scatterAdd_rows_apply _ rfl rfl rfl rfl, val_main_v6_apply, val_main_cst_apply]
  show Ideal.ofBits .f32 0x00000000#32 + _ = _
  rw [Ideal.ofBits_zero_f32, zero_add]
  refine Finset.sum_congr rfl fun p _ => ?_
  have e : idx_main_v7 (ixP p) = ix1 p := funext fun a => Fin.ext (by match a with | ⟨0, _⟩ => rfl)
  rw [val_main_v7_apply, e, cosSq_apply]

/-- … and over the support points of training structure `t`. -/
theorem colSum_apply (t : Fin 256) (r : Fin 512) :
    val_main_v12 (F := Ideal) x0 x1 x3 x4 (ix2 t r) = Spec.colSum (P x0) (S x1) (rsel x3) (csel x4) r t := by
  unfold val_main_v12 Spec.colSum
  simp only [Host.scatterAdd, Ideal.hostScatterAdd_def]
  rw [LibScatterRows.scatterAdd_rows_apply _ rfl rfl rfl rfl, val_main_v10_apply, val_main_cst_0_apply]
  show Ideal.ofBits .f32 0x00000000#32 + _ = _
  rw [Ideal.ofBits_zero_f32, zero_add]
  refine Finset.sum_congr rfl fun c _ => ?_
  have e : idx_main_v11 (ixP c) = ix1 c := funext fun a => Fin.ext (by match a with | ⟨0, _⟩ => rfl)
  have e9 : idx_main_v9 (ix2 c r) = ix2 r c := funext fun a => Fin.ext (by match a with | ⟨0, _⟩ => rfl | ⟨1, _⟩ => rfl)
  rw [val_main_v11_apply, e, val_main_v9_apply, e9, rowSum_apply]

/-- The reference's result for structure `r`. -/
theorem ref_apply (r : Fin 512) (z : Fin 1) :
    val_main_v15 (F := Ideal) x0 x1 x2 x3 x4 (ix2 r z)
      = Spec.refOut (P x0) (S x1) (W x2) (rsel x3) (csel x4) r := by
  rw [val_main_v15_apply]
  unfold Spec.refOut
  refine Finset.sum_congr rfl fun t _ => ?_
  have hz : z = 0 := Subsingleton.elim _ _
  subst hz
  have e13 : idx_main_v13 (lidx_main_v15 (ix2 r (0 : Fin 1)) t) = ix2 t r := funext fun a => Fin.ext (by match a with | ⟨0, _⟩ => rfl | ⟨1, _⟩ => rfl)
  have e14 : idx_main_v14 (ridx_main_v15 (ix2 r (0 : Fin 1)) t) = ix2 (0 : Fin 1) t := funext fun a => Fin.ext (by match a with | ⟨0, _⟩ => rfl | ⟨1, _⟩ => rfl)
  rw [val_main_v13_apply, e13, colSum_apply, val_main_v14_apply, e14]

end Cert.ReferenceIdeal.RefValue

end
-- ==== Proof.Bridge.lean ====
/-
  The kernel's and the reference's result are one function of finite real inputs whenever every atom's row has a positive
  squared norm and every support point belongs to exactly the training structure whose weight the kernel gathers for it.
-/
import proofs.«411673_j62955630625135_2_alg».proof.Proof.Spec

noncomputable section

open scoped BigOperators
open Idealize.ShloMosaic

namespace Cert.Spec

/-- A finite sum of real numbers, read in the extended reals, is the real sum. -/
theorem coe_sum_real {α : Type} (s : Finset α) (f : α → ℝ) :
    (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- A selected real number, read in the extended reals, is the selection among reals. -/
theorem coe_ite_real (p : Prop) [Decidable p] (a : ℝ) :
    (if p then ((a : ℝ) : EReal) else 0) = (((if p then a else 0 : ℝ)) : EReal) := by
  split_ifs <;> simp

section Twins

variable {ι κ δ σ τ : Type} [Fintype ι] [Fintype κ] [Fintype δ] [Fintype σ] [Fintype τ]

/-- The squared norm of a real row is a real number. -/
theorem sq_coe (P : ι → δ → ℝ) (i : ι) :
    sq (fun i d => ((P i d : ℝ) : EReal)) i = ((∑ d, P i d * P i d : ℝ) : EReal) := by
  simp only [sq, ← EReal.coe_mul, coe_sum_real]

/-- A real row of positive squared norm `n` divided by its norm is the row times `1 / √n`. -/
theorem unit_coe (P : ι → δ → ℝ) (i : ι) (hn : 0 < ∑ d, P i d * P i d) (d : δ) :
    unit (fun i d => ((P i d : ℝ) : EReal)) i d
      = ((P i d * (1 / Real.sqrt (∑ d, P i d * P i d)) : ℝ) : EReal) := by
  unfold unit
  rw [sq_coe, Ideal.sqrt_coe, if_neg (not_lt.mpr hn.le), Ideal.div_coe (Real.sqrt_pos.mpr hn).ne',
    EReal.coe_mul]

/-- The squared cosine similarity of real rows is the square of a real inner product. -/
theorem cosSq_coe (P : ι → δ → ℝ) (S : κ → δ → ℝ) (i : ι) (hn : 0 < ∑ d, P i d * P i d) (c : κ) :
    cosSq (fun i d => ((P i d : ℝ) : EReal)) (fun c d => ((S c d : ℝ) : EReal)) i c
      = (((∑ d, P i d * (1 / Real.sqrt (∑ d, P i d * P i d)) * S c d)
          * (∑ d, P i d * (1 / Real.sqrt (∑ d, P i d * P i d)) * S c d) : ℝ) : EReal) := by
  simp only [cosSq, unit_coe P i hn, ← EReal.coe_mul, coe_sum_real]

/-- The weighted Gram matrix of real support points is real. -/
theorem gram_coe (S : κ → δ → ℝ) (W : τ → ℝ) (g : κ → τ) (e d : δ) :
    gram (fun c d => ((S c d : ℝ) : EReal)) (fun t => ((W t : ℝ) : EReal)) g e d
      = ((∑ c, S c e * W (g c) * S c d : ℝ) : EReal) := by
  simp only [gram, ← EReal.coe_mul, coe_sum_real]

/-- The quadratic form over a positive squared norm is the real quadratic form times its reciprocal. -/
theorem quad_coe (P : ι → δ → ℝ) (S : κ → δ → ℝ) (W : τ → ℝ) (g : κ → τ) (i : ι)
    (hn : 0 < ∑ d, P i d * P i d) :
    quad (fun i d => ((P i d : ℝ) : EReal)) (fun c d => ((S c d : ℝ) : EReal)) (fun t => ((W t : ℝ) : EReal)) g i
      = (((∑ d, (∑ e, P i e * ∑ c, S c e * W (g c) * S c d) * P i d) * (1 / ∑ d, P i d * P i d) : ℝ) : EReal) := by
  unfold quad
  rw [sq_coe, Ideal.div_coe hn.ne']
  simp only [gram_coe, ← EReal.coe_mul, coe_sum_real]

end Twins

section RealIdentity

variable {ι κ δ σ τ : Type} [Fintype ι] [Fintype κ] [Fintype δ] [Fintype σ] [Fintype τ]

/-- The quadratic form of a row in the weighted Gram matrix is the weighted sum of its squared inner products
    with the support points: expand both sides into a triple sum and exchange the order of summation. -/
theorem real_gram_quad (P : ι → δ → ℝ) (S : κ → δ → ℝ) (w : κ → ℝ) (i : ι) :
    ∑ d, (∑ e, P i e * ∑ c, S c e * w c * S c d) * P i d
      = ∑ c, ((∑ d, P i d * S c d) * (∑ d, P i d * S c d)) * w c := by
  have hR : ∀ c, ((∑ d, P i d * S c d) * (∑ d, P i d * S c d)) * w c
      = ∑ d, ∑ e, P i e * (S c e * w c * S c d) * P i d := by
    intro c
    rw [Finset.sum_mul_sum, Finset.sum_mul, Finset.sum_comm]
    refine Finset.sum_congr rfl fun d _ => ?_
    rw [Finset.sum_mul]
    refine Finset.sum_congr rfl fun e _ => ?_
    ring
  have hL : ∀ d, (∑ e, P i e * ∑ c, S c e * w c * S c d) * P i d
      = ∑ c, ∑ e, P i e * (S c e * w c * S c d) * P i d := by
    intro d
    rw [Finset.sum_mul, Finset.sum_comm]
    refine Finset.sum_congr rfl fun e _ => ?_
    rw [Finset.mul_sum, Finset.sum_mul]
  rw [Finset.sum_congr rfl fun d _ => hL d, Finset.sum_congr rfl fun c _ => hR c, Finset.sum_comm]

/-- One atom: the quadratic form over the squared norm `n` is the weighted sum of the squared inner products of
    the row scaled by `1 / √n`, because `(1 / √n) · (1 / √n) = 1 / n`. -/
theorem real_atom (P : ι → δ → ℝ) (S : κ → δ → ℝ) (w : κ → ℝ) (i : ι) (hn : 0 < ∑ d, P i d * P i d) :
    (∑ d, (∑ e, P i e * ∑ c, S c e * w c * S c d) * P i d) * (1 / ∑ d, P i d * P i d)
      = ∑ c, ((∑ d, P i d * (1 / Real.sqrt (∑ d, P i d * P i d)) * S c d)
          * (∑ d, P i d * (1 / Real.sqrt (∑ d, P i d * P i d)) * S c d)) * w c := by
  have hs : (1 / Real.sqrt (∑ d, P i d * P i d)) * (1 / Real.sqrt (∑ d, P i d * P i d))
      = 1 / ∑ d, P i d * P i d := by
    rw [div_mul_div_comm, one_mul, Real.mul_self_sqrt hn.le]
  have hA : ∀ c, (∑ d, P i d * (1 / Real.sqrt (∑ d, P i d * P i d)) * S c d)
      = (1 / Real.sqrt (∑ d, P i d * P i d)) * ∑ d, P i d * S c d := by
    intro c
    rw [Finset.mul_sum]
    refine Finset.sum_congr rfl fun d _ => ?_
    ring
  rw [real_gram_quad, Finset.sum_mul]
  refine Finset.sum_congr rfl fun c _ => ?_
  rw [hA c, ← hs]
  ring

/-- Contracting with the weights over the training structures, when each support point belongs to exactly the
    structure `g c`, gathers the weight `W (g c)` for each support point. -/
theorem real_gather [DecidableEq τ] (W : τ → ℝ) (csel : κ → τ → Prop) [∀ c t, Decidable (csel c t)]
    (g : κ → τ) (hg : ∀ c t, csel c t ↔ t = g c) (R : κ → ℝ) :
    ∑ t, (∑ c, if csel c t then R c else 0) * W t = ∑ c, R c * W (g c) := by
  have h1 : ∀ t, (∑ c, if csel c t then R c else 0) * W t = ∑ c, if t = g c then R c * W t else 0 := by
    intro t
    rw [Finset.sum_mul]
    refine Finset.sum_congr rfl fun c _ => ?_
    by_cases h : t = g c
    · rw [if_pos ((hg c t).mpr h), if_pos h]
    · rw [if_neg (fun hc => h ((hg c t).mp hc)), if_neg h, zero_mul]
  rw [Finset.sum_congr rfl fun t _ => h1 t, Finset.sum_comm]
  refine Finset.sum_congr rfl fun c _ => ?_
  rw [Finset.sum_ite_eq' Finset.univ (g c) (fun t => R c * W t), if_pos (Finset.mem_univ _)]

/-- The sum over the atoms of a structure commutes with the weighted sum over the support points. -/
theorem real_rows (rsel : ι → σ → Prop) [∀ i r, Decidable (rsel i r)] (r : σ) (C : ι → κ → ℝ) (w : κ → ℝ) :
    ∑ c, (∑ i, if rsel i r then C i c else 0) * w c = ∑ i, if rsel i r then ∑ c, C i c * w c else 0 := by
  have h1 : ∀ c, (∑ i, if rsel i r then C i c else 0) * w c = ∑ i, if rsel i r then C i c * w c else 0 := by
    intro c
    rw [Finset.sum_mul]
    refine Finset.sum_congr rfl fun i _ => ?_
    by_cases h : rsel i r
    · rw [if_pos h, if_pos h]
    · rw [if_neg h, if_neg h, zero_mul]
  rw [Finset.sum_congr rfl fun c _ => h1 c, Finset.sum_comm]
  refine Finset.sum_congr rfl fun i _ => ?_
  by_cases h : rsel i r
  · simp only [if_pos h]
  · simp only [if_neg h, Finset.sum_const_zero]

end RealIdentity

theorem bridge {ι κ δ σ τ : Type} [Fintype ι] [Fintype κ] [Fintype δ] [Fintype σ] [Fintype τ] [DecidableEq τ]
    (P : ι → δ → ℝ) (S : κ → δ → ℝ) (W : τ → ℝ)
    (rsel : ι → σ → Prop) [∀ i r, Decidable (rsel i r)] (csel : κ → τ → Prop) [∀ c t, Decidable (csel c t)]
    (g : κ → τ) (hg : ∀ c t, csel c t ↔ t = g c) (hn : ∀ i, 0 < ∑ d, P i d * P i d) (r : σ) :
    kerOut (fun i d => ((P i d : ℝ) : EReal)) (fun c d => ((S c d : ℝ) : EReal)) (fun t => ((W t : ℝ) : EReal)) rsel g r
      = refOut (fun i d => ((P i d : ℝ) : EReal)) (fun c d => ((S c d : ℝ) : EReal)) (fun t => ((W t : ℝ) : EReal)) rsel csel r := by
  -- The kernel's result is the coercion of a real number …
  have hker : kerOut (fun i d => ((P i d : ℝ) : EReal)) (fun c d => ((S c d : ℝ) : EReal))
        (fun t => ((W t : ℝ) : EReal)) rsel g r
      = ((∑ i, if rsel i r then
            (∑ d, (∑ e, P i e * ∑ c, S c e * W (g c) * S c d) * P i d) * (1 / ∑ d, P i d * P i d)
          else 0 : ℝ) : EReal) := by
    unfold kerOut
    rw [← coe_sum_real]
    refine Finset.sum_congr rfl fun i _ => ?_
    rw [quad_coe P S W g i (hn i), coe_ite_real]
  -- … and so is the reference's.
  have href : refOut (fun i d => ((P i d : ℝ) : EReal)) (fun c d => ((S c d : ℝ) : EReal))
        (fun t => ((W t : ℝ) : EReal)) rsel csel r
      = ((∑ t, (∑ c, if csel c t then
            (∑ i, if rsel i r then
              (∑ d, P i d * (1 / Real.sqrt (∑ d, P i d * P i d)) * S c d)
                * (∑ d, P i d * (1 / Real.sqrt (∑ d, P i d * P i d)) * S c d)
            else 0)
          else 0) * W t : ℝ) : EReal) := by
    simp only [refOut, colSum, rowSum, fun i c => cosSq_coe P S i (hn i) c, coe_ite_real, coe_sum_real,
      ← EReal.coe_mul]
  rw [hker, href]
  -- The two real numbers are equal: gather the weights, exchange the sums, and compare atom by atom.
  refine congrArg Real.toEReal ?_
  rw [real_gather W csel g hg, real_rows rsel r]
  refine Finset.sum_congr rfl fun i _ => ?_
  by_cases h : rsel i r
  · rw [if_pos h, if_pos h]
    exact real_atom P S (fun c => W (g c)) i (hn i)
  · rw [if_neg h, if_neg h]

end Cert.Spec

end
-- ==== Proof.PreDecode.lean ====
/-
  What the precondition says of the inputs: every float entry is a real number, every atom's row has a positive squared
  norm, and every support point's segment id names one of the 256 training structures.
-/
import proofs.«411673_j62955630625135_2_alg».proof.Pre_finite_inputs
import proofs.«411673_j62955630625135_2_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

open scoped BigOperators
open Idealize.ShloMosaic Idealize.ShloMosaic.ValueIdx

namespace Cert.PreDecode

open Cert.Pre_finite_inputs

/-- The scalar shape has one index. -/
instance subsingleton_scalar_idx : Subsingleton S_.Idx := ⟨fun a b => funext fun d => d.elim0⟩

/-- An extended real whose absolute value lies strictly below +∞ is a real number. -/
theorem real_of_abs_lt_top (x : EReal) (h : max x (-x) < ⊤) : ∃ a : ℝ, x = (a : EReal) := by
  induction x using EReal.rec with
  | bot => simp at h
  | coe a => exact ⟨a, rfl⟩
  | top => simp at h

/-- The f32 pattern of +∞ is the top element. -/
theorem ofBits_inf_f32 : Ideal.ofBits .f32 0x7F800000#32 = ⊤ := by simp [Ideal.ofBits, Ideal.ieee]

/-- A strict comparison below the +∞ pattern that holds says the left side is below the top. -/
theorem lt_top_of_cmp (a : EReal) (e : Ideal.cmp .olt a (Ideal.ofBits .f32 0x7F800000#32) = 1#1) : a < ⊤ := by
  rw [ofBits_inf_f32] at e
  exact of_decide_eq_true ((StableHlo.Predicate.ofBool_eq_one_iff _).1 e)

/-- A strict comparison above the zero pattern that holds says the left side is positive. -/
theorem pos_of_cmp (a : EReal) (e : Ideal.cmp .ogt a (Ideal.ofBits .f32 0x00000000#32) = 1#1) : 0 < a := by
  rw [Ideal.ofBits_zero_f32] at e
  exact of_decide_eq_true ((StableHlo.Predicate.ofBool_eq_one_iff _).1 e)

/-- A float comparison against a broadcast scalar constant, read at an index. -/
theorem cmpf_bcast_apply {T : Shape} (p : CmpFPredicate) (a : FVec Ideal T .f32) (hb : S_.BroadcastsInDim T (![] : Fin 0 → Fin T.rank))
    (b : BitVec 32) (j : T.Idx) :
    cmpf p a (broadcastInDim T ![] hb (constant S_ .f32 b)) j = Ideal.cmp p (a j) (Ideal.ofBits .f32 b) := rfl

/-- The host's sum from a scalar constant, read at an index. -/
theorem reduceAdd_apply {s t : Shape} {axes : List (Fin s.rank)} (x : FVec Ideal s .f32) (b : BitVec 32)
    (h : s.ReducesTo axes t) (hu : 0 < S_.numel) (j : t.Idx) :
    Host.reduceAdd x (constant S_ .f32 b) h hu j = Ideal.hostReduceAdd h x (Ideal.ofBits .f32 b) j := rfl

theorem decode [Cert.Pre_finite_inputs.Facts]
    (x0 : FVec Ideal S32768x256 .f32) (x1 : FVec Ideal S8192x256 .f32) (x2 : FVec Ideal S1x256 .f32)
    (x3 : IVec S32768 32) (x4 : IVec S8192 32)
    (h : Cert.Pre_finite_inputs.fn (F := Ideal) x0 x1 x2 x3 x4 = fun _ => 1#1) :
    (∀ j, ∃ a : ℝ, x0 j = (a : EReal)) ∧ (∀ j, ∃ a : ℝ, x1 j = (a : EReal)) ∧ (∀ j, ∃ a : ℝ, x2 j = (a : EReal))
    ∧ (∀ i : Fin 32768, (0 : EReal) < ∑ d : Fin 256, x0 (ix2 i d) * x0 (ix2 i d))
    ∧ (∀ c : Fin 8192, 0 ≤ (x4 (ix1 c)).toInt ∧ (x4 (ix1 c)).toInt < 256) := by
  have h0 := congrFun h ValueIdx.ix0
  dsimp only [Cert.Pre_finite_inputs.fn, Cert.Pre_finite_inputs.fn_part1, andi] at h0
  simp only [IntOp.andi_eq_one] at h0
  obtain ⟨⟨⟨⟨⟨h1, h2⟩, h3⟩, h4⟩, h5⟩, h6⟩ := h0
  refine ⟨fun j => ?_, fun j => ?_, fun j => ?_, fun i => ?_, fun c => ⟨?_, ?_⟩⟩
  · -- |x0 j| < +∞
    have e := Host.reduce_andi_all _ _ _ _ _ h1 j
    exact real_of_abs_lt_top (x0 j) (lt_top_of_cmp _ e)
  · have e := Host.reduce_andi_all _ _ _ _ _ h2 j
    exact real_of_abs_lt_top (x1 j) (lt_top_of_cmp _ e)
  · have e := Host.reduce_andi_all _ _ _ _ _ h3 j
    exact real_of_abs_lt_top (x2 j) (lt_top_of_cmp _ e)
  · -- the row sum of squares is positive
    have e := Host.reduce_andi_all _ _ _ _ _ h4 (ix1 i)
    rw [cmpf_bcast_apply] at e
    have hp := pos_of_cmp _ e
    rw [reduceAdd_apply, Ideal.hostReduceAdd_single Facts.reducesTo_S32768x256_S32768_d1 (by decide), Ideal.ofBits_zero_f32, zero_add] at hp
    refine lt_of_lt_of_eq hp (Finset.sum_congr rfl fun k _ => ?_)
    have hk : (Shape.Reduces.lift (by decide : S32768x256.Reduces [1] S32768) (ix1 i) k) = ix2 i k :=
      funext fun a => Fin.ext (by match a with | ⟨0, _⟩ => rfl | ⟨1, _⟩ => rfl)
    exact congrArg (fun q => x0 q * x0 q) hk
  · have e := Host.reduce_andi_all _ _ _ _ _ h5 (ix1 c)
    have e' : IntOp.cmpi .sge (x4 (ix1 c)) 0#32 = 1#1 := e
    exact IntOp.cmpi_sge.1 e'
  · have e := Host.reduce_andi_all _ _ _ _ _ h6 (ix1 c)
    have e' : IntOp.cmpi .slt (x4 (ix1 c)) 256#32 = 1#1 := e
    exact IntOp.cmpi_slt.1 e'

end Cert.PreDecode

end
-- ==== Proof.Final.lean ====
/-
  Under the precondition the two programs' results are one array: every input is real, every atom's row has a positive
  squared norm, and every support point's segment id names the training structure whose weight the kernel gathers.
-/
import proofs.«411673_j62955630625135_2_alg».proof.Proof.KernelOut
import proofs.«411673_j62955630625135_2_alg».proof.Proof.RefValue
import proofs.«411673_j62955630625135_2_alg».proof.Proof.Bridge
import proofs.«411673_j62955630625135_2_alg».proof.Proof.PreDecode

noncomputable section

open scoped BigOperators

namespace Cert.Final

open Idealize.ShloMosaic Idealize.ShloMosaic.ValueIdx

/-- A segment id in range belongs to exactly the training structure it names. -/
theorem csel_iff (x4 : IVec Cert.KernelIdeal.S8192 32) (c : Fin 8192) (t : Fin 256)
    (h : 0 ≤ (x4 (ix1 c)).toInt ∧ (x4 (ix1 c)).toInt < 256) :
    (x4 (ix1 c)).toInt = (t.val : Int) ↔ t = Cert.KernelIdeal.Stages.gIdx x4 c := by
  constructor
  · intro e
    apply Fin.ext
    show t.val = min (x4 (ix1 c)).toInt.toNat 255
    omega
  · intro e
    have : t.val = min (x4 (ix1 c)).toInt.toNat 255 := congrArg Fin.val e
    omega

theorem results_agree [Cert.Pre_finite_inputs.Facts]
    (x0 : FVec Ideal Cert.KernelIdeal.S32768x256 .f32) (x1 : FVec Ideal Cert.KernelIdeal.S8192x256 .f32)
    (x2 : FVec Ideal Cert.KernelIdeal.S1x256 .f32) (x3 : IVec Cert.KernelIdeal.S32768 32) (x4 : IVec Cert.KernelIdeal.S8192 32)
    (hpre : Cert.Pre_finite_inputs.fn (F := Ideal) x0 x1 x2 x3 x4 = fun _ => 1#1) :
    Cert.ReferenceIdeal.Read.val_main_v15 (F := Ideal) x0 x1 x2 x3 x4 = Cert.KernelIdeal.Stages.kernelResult x0 x1 x2 x3 x4 := by
  obtain ⟨h0, h1, h2, hn, hc⟩ := Cert.PreDecode.decode x0 x1 x2 x3 x4 hpre
  choose P0 hP0 using h0
  choose S0 hS0 using h1
  choose W0 hW0 using h2
  funext j
  obtain ⟨r, z, rfl⟩ : ∃ (r : Fin 512) (z : Fin 1), j = ix2 r z := ⟨j 0, j 1, eq_ix2 j⟩
  rw [Cert.ReferenceIdeal.RefValue.ref_apply, Cert.KernelIdeal.Stages.kernel_out x0 x1 x2 x3 x4 (fun c => (hc c).1)]
  have eP : Cert.ReferenceIdeal.RefValue.P x0 = fun i d => ((P0 (ix2 i d) : ℝ) : EReal) := funext fun i => funext fun d => hP0 _
  have eS : Cert.ReferenceIdeal.RefValue.S x1 = fun c d => ((S0 (ix2 c d) : ℝ) : EReal) := funext fun c => funext fun d => hS0 _
  have eW : Cert.ReferenceIdeal.RefValue.W x2 = fun t => ((W0 (ix2 (0 : Fin 1) t) : ℝ) : EReal) := funext fun t => hW0 _
  have hn' : ∀ i : Fin 32768, 0 < ∑ d : Fin 256, P0 (ix2 i d) * P0 (ix2 i d) := fun i => by
    have := hn i
    simp only [hP0, ← EReal.coe_mul, Cert.Spec.coe_sum_real] at this
    exact_mod_cast this
  show Cert.Spec.refOut (Cert.ReferenceIdeal.RefValue.P x0) (Cert.ReferenceIdeal.RefValue.S x1) (Cert.ReferenceIdeal.RefValue.W x2) _ _ r
    = Cert.Spec.kerOut (Cert.ReferenceIdeal.RefValue.P x0) (Cert.ReferenceIdeal.RefValue.S x1) (Cert.ReferenceIdeal.RefValue.W x2) _ _ r
  rw [eP, eS, eW]
  exact (Cert.Spec.bridge (fun i d => P0 (ix2 i d)) (fun c d => S0 (ix2 c d)) (fun t => W0 (ix2 (0 : Fin 1) t))
    (Cert.ReferenceIdeal.RefValue.rsel x3) (Cert.ReferenceIdeal.RefValue.csel x4) (Cert.KernelIdeal.Stages.gIdx x4)
    (fun c t => csel_iff x4 c t (hc c)) hn' r).symm

end Cert.Final

end
-- ==== Proof.lean ====
/-
  The kernel against its reference: per query structure, the energy prediction of a cosine kernel with exponent two.

  The reference normalises every atom's power-spectrum row by its Euclidean norm, squares its inner product with each
  of the 8192 support points, sums the squares over the atoms of a query structure and over the support points of a
  training structure, and contracts with the 256 weights.  The kernel uses that the exponent is two: with
  v_c the weight of support point c's training structure,
      ∑_c v_c (x_i · s_c)² = x_iᵀ (∑_c v_c s_c s_cᵀ) x_i,
  so it first forms the 256 × 256 matrix ∑_c s_c v_c s_cᵀ on the host, evaluates on the chip, for every atom, the
  quadratic form of the UNNORMALISED row in it divided by the row's squared norm (‖p‖² = (√‖p‖²)², so dividing the form by
  ‖p‖² is normalising both factors), and sums that column over the atoms of each structure.  On the extended reals the
  two agree when every input is finite, every row has a positive squared norm (the reference divides by the norm) and
  every support point's segment id names one of the 256 training structures (where the reference's segment sum and
  the kernel's gather of the weight mean the same).  A change of float format is the identity there, so the kernel's
  bf16 matrix product is the exact product.

  The two scatter-sums, the gather, the matrix products and the lane sums are each read at an index (Proof/KernelStages,
  Proof/RefValue); both results are then instances of one specification over plain index sets (Proof/Spec), whose two
  sides are joined in the reals by exchanging finite sums (Proof/Bridge); Proof/PreDecode reads the precondition;
  Proof/KernelValue reads the kernel's result array off its run, block by block.  Nothing was rewritten by the
  idealisation, so the preservation claim is empty.
-/
import proofs.«411673_j62955630625135_2_alg».proof.Defs
import proofs.«411673_j62955630625135_2_alg».proof.Proof.Gen.Kernel
import proofs.«411673_j62955630625135_2_alg».proof.Proof.Gen.Kernel.Skeleton
import proofs.«411673_j62955630625135_2_alg».proof.Proof.Gen.Kernel.Launch
import proofs.«411673_j62955630625135_2_alg».proof.Proof.Gen.Kernel.Points
import proofs.«411673_j62955630625135_2_alg».proof.Proof.Gen.Kernel.Frame
import proofs.«411673_j62955630625135_2_alg».proof.Proof.Gen.KernelIdeal
import proofs.«411673_j62955630625135_2_alg».proof.Proof.Gen.KernelIdeal.Skeleton
import proofs.«411673_j62955630625135_2_alg».proof.Proof.Gen.KernelIdeal.Launch
import proofs.«411673_j62955630625135_2_alg».proof.Proof.Gen.KernelIdeal.Points
import proofs.«411673_j62955630625135_2_alg».proof.Proof.Gen.KernelIdeal.Frame
import proofs.«411673_j62955630625135_2_alg».proof.Proof.Gen.ReferenceIdeal
import proofs.«411673_j62955630625135_2_alg».proof.Proof.Gen.Pre_finite_inputs
import proofs.«411673_j62955630625135_2_alg».proof.Proof.Gen.ReferenceIdeal.Run
import proofs.«411673_j62955630625135_2_alg».proof.Proof.Gen.ReferenceIdeal.Read
import proofs.«411673_j62955630625135_2_alg».proof.Proof.KernelValue
import proofs.«411673_j62955630625135_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, the kernel's result buffer at its result function of the arguments, the reference's at its own
    composed term, which under the precondition is the same array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq _ _ _ _ _).trans (Cert.Final.results_agree _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
